-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![1024, 256]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S1024x256 : Shape := ⟨2, ![1024, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel

variable [Facts]

def fn {F : FTy → Type} [FloatOps F] (main_arg0 : FVec F S1024x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  main_v3
-- ==== Kernel.lean ====
abbrev S256x256 : Shape := ⟨2, ![256, 256]⟩
abbrev S3x256x256 : Shape := ⟨3, ![3, 256, 256]⟩
abbrev S3 : Shape := ⟨1, ![3]⟩
abbrev S_ : Shape := ⟨0, ![]⟩
abbrev S1 : Shape := ⟨1, ![1]⟩
abbrev S1x256x256 : Shape := ⟨3, ![1, 256, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .bf16⟩
  | .local _ .vmem, ⟨3, _⟩ => ⟨S3x256x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5 : BitVec 32 := 16#32
  let v12 : BitVec 32 := Scalar.muli v2 c16_i32_5
  let v13 : BitVec 32 := Scalar.addi c0_i32 v12
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let v11 : BitVec 32 := Scalar.remsi v10 c4_i32_3
  let c1_i32_7 : BitVec 32 := 1#32
  let v16 : BitVec 32 := Scalar.muli v11 c1_i32_7
  let v17 : BitVec 32 := Scalar.addi v15 v16
  v17.toNat
def k0_dev2 (d0 : Dev nD) : Nat :=
  let c0_i32_12 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_11 : BitVec 32 := 16#32
  let v20 : BitVec 32 := Scalar.muli v2 c16_i32_11
  let v21 : BitVec 32 := Scalar.addi c0_i32_12 v20
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v22 : BitVec 32 := Scalar.muli v5 c4_i32_13
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let v18 : BitVec 32 := Scalar.addi v8 c2_i32_8
  let c4_i32_9 : BitVec 32 := 4#32
  let v19 : BitVec 32 := Scalar.remsi v18 c4_i32_9
  let c1_i32_14 : BitVec 32 := 1#32
  let v24 : BitVec 32 := Scalar.muli v19 c1_i32_14
  let v25 : BitVec 32 := Scalar.addi v23 v24
  v25.toNat
def k0_dev3 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v28 : BitVec 32 := Scalar.muli v2 c16_i32_17
  let v29 : BitVec 32 := Scalar.addi c0_i32_18 v28
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_19 : BitVec 32 := 4#32
  let v30 : BitVec 32 := Scalar.muli v5 c4_i32_19
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v26 : BitVec 32 := Scalar.addi v8 c3_i32
  let c4_i32_15 : BitVec 32 := 4#32
  let v27 : BitVec 32 := Scalar.remsi v26 c4_i32_15
  let c1_i32_20 : BitVec 32 := 1#32
  let v32 : BitVec 32 := Scalar.muli v27 c1_i32_20
  let v33 : BitVec 32 := Scalar.addi v31 v32
  v33.toNat
def k0_dev4 (d0 : Dev nD) : Nat :=
  let c0_i32_31 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_30 : BitVec 32 := 16#32
  let v42 : BitVec 32 := Scalar.muli v2 c16_i32_30
  let v43 : BitVec 32 := Scalar.addi c0_i32_31 v42
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_32 : BitVec 32 := 4#32
  let v44 : BitVec 32 := Scalar.muli v5 c4_i32_32
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v40 : BitVec 32 := Scalar.addi v8 c1_i32_25
  let c4_i32_26 : BitVec 32 := 4#32
  let v41 : BitVec 32 := Scalar.remsi v40 c4_i32_26
  let c1_i32_33 : BitVec 32 := 1#32
  let v46 : BitVec 32 := Scalar.muli v41 c1_i32_33
  let v47 : BitVec 32 := Scalar.addi v45 v46
  v47.toNat
def k0_dev5 (d0 : Dev nD) : Nat :=
  let c0_i32_42 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_41 : BitVec 32 := 16#32
  let v56 : BitVec 32 := Scalar.muli v2 c16_i32_41
  let v57 : BitVec 32 := Scalar.addi c0_i32_42 v56
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_43 : BitVec 32 := 4#32
  let v58 : BitVec 32 := Scalar.muli v5 c4_i32_43
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_36 : BitVec 32 := 2#32
  let v54 : BitVec 32 := Scalar.addi v8 c2_i32_36
  let c4_i32_37 : BitVec 32 := 4#32
  let v55 : BitVec 32 := Scalar.remsi v54 c4_i32_37
  let c1_i32_44 : BitVec 32 := 1#32
  let v60 : BitVec 32 := Scalar.muli v55 c1_i32_44
  let v61 : BitVec 32 := Scalar.addi v59 v60
  v61.toNat
def k0_dev6 (d0 : Dev nD) : Nat :=
  let c0_i32_53 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_52 : BitVec 32 := 16#32
  let v70 : BitVec 32 := Scalar.muli v2 c16_i32_52
  let v71 : BitVec 32 := Scalar.addi c0_i32_53 v70
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_54 : BitVec 32 := 4#32
  let v72 : BitVec 32 := Scalar.muli v5 c4_i32_54
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_47 : BitVec 32 := 3#32
  let v68 : BitVec 32 := Scalar.addi v8 c3_i32_47
  let c4_i32_48 : BitVec 32 := 4#32
  let v69 : BitVec 32 := Scalar.remsi v68 c4_i32_48
  let c1_i32_55 : BitVec 32 := 1#32
  let v74 : BitVec 32 := Scalar.muli v69 c1_i32_55
  let v75 : BitVec 32 := Scalar.addi v73 v74
  v75.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  packedbf16_S256x256_S256x256_0_0 : (Rect.unit (s := S256x256) ![0, 0] S256x256.size inb_S256x256_S256x256_0_0).PackedRows (EltTy.packing .bf16)
  inb_S3_S1_0 : ∀ a, (![0] : Fin 1 → Nat) a + S1.size a ≤ S3.size a
  squeezes_S1_S_ : S1.Squeezes S_
  inb_S3x256x256_S1x256x256_0_0_0 : ∀ a, (![0, 0, 0] : Fin 3 → Nat) a + S1x256x256.size a ≤ S3x256x256.size a
  squeezes_S1x256x256_S256x256 : S1x256x256.Squeezes S256x256
  wordsbf16_S3x256x256_S1x256x256_0_0_0 : (Rect.unit (s := S3x256x256) ![0, 0, 0] S1x256x256.size inb_S3x256x256_S1x256x256_0_0_0).WholeWords (EltTy.packing .bf16)
  inb_S3_S1_1 : ∀ a, (![1] : Fin 1 → Nat) a + S1.size a ≤ S3.size a
  inb_S3x256x256_S1x256x256_1_0_0 : ∀ a, (![1, 0, 0] : Fin 3 → Nat) a + S1x256x256.size a ≤ S3x256x256.size a
  wordsbf16_S3x256x256_S1x256x256_1_0_0 : (Rect.unit (s := S3x256x256) ![1, 0, 0] S1x256x256.size inb_S3x256x256_S1x256x256_1_0_0).WholeWords (EltTy.packing .bf16)
  inb_S3_S1_2 : ∀ a, (![2] : Fin 1 → Nat) a + S1.size a ≤ S3.size a
  inb_S3x256x256_S1x256x256_2_0_0 : ∀ a, (![2, 0, 0] : Fin 3 → Nat) a + S1x256x256.size a ≤ S3x256x256.size a
  wordsbf16_S3x256x256_S1x256x256_2_0_0 : (Rect.unit (s := S3x256x256) ![2, 0, 0] S1x256x256.size inb_S3x256x256_S1x256x256_2_0_0).WholeWords (EltTy.packing .bf16)
  h_S1x256x256 : 0 < S1x256x256.numel
  shapeCasts_S1x256x256_S256x256 : S1x256x256.ShapeCasts S256x256
  hcc0_scratch2 : 2 + S3.numel ≤ 8
  hcc0_scratch3 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch2 : DmaSems sig S3 := SemArray.consecutive 2 S3 hcc0_scratch2
abbrev cc0_scratch3 : DmaSems sig S3 := SemArray.consecutive 5 S3 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x256 : Shape := ⟨2, ![1024, 256]⟩
abbrev S4x256x256 : Shape := ⟨3, ![4, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S4x256x256, .f32⟩
  | .hbm, ⟨2, _⟩ => ⟨S_, .f32⟩
  | .hbm, ⟨3, _⟩ => ⟨S256x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S1024x256_S4x256x256 : S1024x256.ShapeCasts S4x256x256
  reducesTo_S4x256x256_S256x256_d0 : S4x256x256.ReducesTo [0] S256x256
  h_S_ : 0 < S_.numel

variable [Facts₀]

class Facts : Prop extends Facts₀ where

variable [Facts]
-- ==== Proof.Peers.lean ====
import proofs.«900735_g7700000000000736_dist_ar_v7x_xyz2x4x4_z_m256_n256_bf16_1_alg».proof.Proof.Gen.KernelIdeal

/-! The devices a device exchanges with: on the mesh x=2, y=4, z=4 a device's logical id is 16·x + 4·y + z, and a device
talks only to the three devices with its own x and y coordinates: (pk k c) is the one whose z coordinate is c's plus k + 1
modulo 4. The map (pk k) is a bijection with inverse (pk k.rev): the offsets k + 1 and 3 - k add up to 4. -/

namespace Cert.KernelIdeal.AR

open Cert.KernelIdeal Cert.KernelIdeal.Gen Idealize.ShloMosaic

/-- The device with c's x and y coordinates whose z coordinate is c's plus k + 1, modulo 4. -/
def pk (k : Fin 3) (c : Dev nD) : Dev nD :=
  ⟨16 * (c.val / 16) + 4 * ((c.val / 4) % 4) + ((c.val % 4 + (k.val + 1)) % 4), by have h : c.val < 32 := c.isLt; show _ < 32; omega⟩

theorem pk_rev (k : Fin 3) (c : Dev nD) : pk k.rev (pk k c) = c := by revert k c; decide
theorem rev_pk (k : Fin 3) (c : Dev nD) : pk k (pk k.rev c) = c := by revert k c; decide
theorem pk_ne (k : Fin 3) (c : Dev nD) : pk k c ≠ c := by revert k c; decide
theorem pk_inj_left {k k' : Fin 3} {c : Dev nD} (h : pk k c = pk k' c) : k = k' := by revert k k' c; decide

/-- (pk k) as a permutation of the devices. -/
def pkEquiv (k : Fin 3) : Dev nD ≃ Dev nD := ⟨pk k, pk k.rev, pk_rev k, rev_pk k⟩

/-- The six printed device chains: the three signals address pk 0 c, pk 1 c, pk 2 c, and so do the three copies. -/
theorem dev1_eq (c : Dev nD) : (⟨k0_dev1 c, k0_dev1_lt c⟩ : Dev nD) = pk 0 c := Fin.ext ((k0_dev1_eq c).trans rfl)
theorem dev2_eq (c : Dev nD) : (⟨k0_dev2 c, k0_dev2_lt c⟩ : Dev nD) = pk 1 c := Fin.ext ((k0_dev2_eq c).trans rfl)
theorem dev3_eq (c : Dev nD) : (⟨k0_dev3 c, k0_dev3_lt c⟩ : Dev nD) = pk 2 c := Fin.ext ((k0_dev3_eq c).trans rfl)
theorem dev4_eq (c : Dev nD) : (⟨k0_dev4 c, k0_dev4_lt c⟩ : Dev nD) = pk 0 c := Fin.ext ((k0_dev4_eq c).trans rfl)
theorem dev5_eq (c : Dev nD) : (⟨k0_dev5 c, k0_dev5_lt c⟩ : Dev nD) = pk 1 c := Fin.ext ((k0_dev5_eq c).trans rfl)
theorem dev6_eq (c : Dev nD) : (⟨k0_dev6 c, k0_dev6_lt c⟩ : Dev nD) = pk 2 c := Fin.ext ((k0_dev6_eq c).trans rfl)

/-- The z coordinate of pk k c. -/
theorem pk_z (k : Fin 3) (c : Dev nD) : (pk k c).val % 4 = (c.val % 4 + (k.val + 1)) % 4 := by revert k c; decide

end Cert.KernelIdeal.AR
-- ==== Proof.Bufs.lean ====
import proofs.«900735_g7700000000000736_dist_ar_v7x_xyz2x4x4_z_m256_n256_bf16_1_alg».proof.Proof.Peers
import proofs.«900735_g7700000000000736_dist_ar_v7x_xyz2x4x4_z_m256_n256_bf16_1_alg».proof.Proof.Gen.KernelIdeal.Skeleton
import proofs.«900735_g7700000000000736_dist_ar_v7x_xyz2x4x4_z_m256_n256_bf16_1_alg».proof.Proof.Gen.KernelIdeal.Launch
import proofs.«900735_g7700000000000736_dist_ar_v7x_xyz2x4x4_z_m256_n256_bf16_1_alg».proof.Proof.Gen.KernelIdeal.Points
import Idealize.ShloMosaic.Lib.Pipeline.Launch
import Idealize.ShloMosaic.Lib.Pipeline.Kit
import Idealize.ShloMosaic.Lib.Tactic

/-! The buffers of one device's kernel and what they hold: the staged block of x, the bf16 buffer that is sent (the block,
truncated), and the receive buffer of three slots, slot k being the rows [k] of a 3 x 256 x 256 array. -/

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-- The staged input block, the staged result block, the buffer that is sent, the receive buffer. -/
abbrev xM : Memref sig .tc .vmem S256x256 .f32 := Memref.whole cc0_stg0_0
abbrev oM : Memref sig .tc .vmem S256x256 .f32 := Memref.whole cc0_stg1_0
abbrev sM : Memref sig .tc .vmem S256x256 .bf16 := Memref.whole cc0_scratch0
abbrev rM : Memref sig .tc .vmem S3x256x256 .bf16 := Memref.whole cc0_scratch1

/-- Rows [k] of the receive buffer, as a rectangle of the 3 x 256 x 256 array; -/
abbrev rect : Fin 3 → Rect S3x256x256 := fun
  | 0 => Rect.unit (s := S3x256x256) ![0, 0, 0] S1x256x256.size inb_S3x256x256_S1x256x256_0_0_0
  | 1 => Rect.unit (s := S3x256x256) ![1, 0, 0] S1x256x256.size inb_S3x256x256_S1x256x256_1_0_0
  | 2 => Rect.unit (s := S3x256x256) ![2, 0, 0] S1x256x256.size inb_S3x256x256_S1x256x256_2_0_0
  | ⟨_ + 3, h⟩ => absurd h (Nat.not_lt.2 (Nat.le_add_left _ _))

/-- and as the 256 x 256 memref a copy lands in. -/
abbrev slot : Fin 3 → Memref sig .tc .vmem S256x256 .bf16 := fun
  | 0 => ((Memref.whole cc0_scratch1).slice (Rect.unit (s := S3x256x256) ![0, 0, 0] S1x256x256.size inb_S3x256x256_S1x256x256_0_0_0) (fun _ => rfl)).squeeze S256x256 squeezes_S1x256x256_S256x256
  | 1 => ((Memref.whole cc0_scratch1).slice (Rect.unit (s := S3x256x256) ![1, 0, 0] S1x256x256.size inb_S3x256x256_S1x256x256_1_0_0) (fun _ => rfl)).squeeze S256x256 squeezes_S1x256x256_S256x256
  | 2 => ((Memref.whole cc0_scratch1).slice (Rect.unit (s := S3x256x256) ![2, 0, 0] S1x256x256.size inb_S3x256x256_S1x256x256_2_0_0) (fun _ => rfl)).squeeze S256x256 squeezes_S1x256x256_S256x256
  | ⟨_ + 3, h⟩ => absurd h (Nat.not_lt.2 (Nat.le_add_left _ _))

/-- Device c's block of x as its kernel finds it staged. -/
def xstg (c : Dev nD) : (cc0_stg0_0 : Ref sig .tc).ty.Contents (Elt F) :=
  (win0_0.blk (0 : Fin 1)).view.read (Elt F) (m ((c : Thread nD τ).loc main_arg0))

/-- What device c sends: its block, each entry truncated to bf16. -/
def sendVal (c : Dev nD) : (cc0_scratch0 : Ref sig .tc).ty.Contents (Elt F) := k0_pay2 (xstg m c)

/-- Slot k of device c's receive buffer is written by the device whose k-th copy addresses c. -/
abbrev src (k : Fin 3) (c : Dev nD) : Dev nD := pk k.rev c

abbrev r0 : Rect S256x256 := Rect.unit (s := S256x256) ![0, 0] S256x256.size inb_S256x256_S256x256_0_0

omit [FloatOps F] in
theorem hz : (![0, 0] : Fin 2 → Nat) = fun _ => 0 := funext fun a => by fin_cases a <;> rfl

omit [FloatOps F] in
theorem read_x (f : (cc0_stg0_0 : Ref sig .tc).ty.Contents (Elt F)) : (xM : Memref sig .tc .vmem S256x256 .f32).view.readAt (Elt F) r0.toLoadRect f = f :=
  Memref.readAt_unit_zero (Elt F) cc0_stg0_0 hz _ f
omit [FloatOps F] in
theorem read_s (f : (cc0_scratch0 : Ref sig .tc).ty.Contents (Elt F)) : (sM : Memref sig .tc .vmem S256x256 .bf16).view.readAt (Elt F) r0.toLoadRect f = f :=
  Memref.readAt_unit_zero (Elt F) cc0_scratch0 hz _ f
omit [FloatOps F] in
theorem write_s (f w : (cc0_scratch0 : Ref sig .tc).ty.Contents (Elt F)) :
    ((sM : Memref sig .tc .vmem S256x256 .bf16).access r0 : View sig .tc _ _ _).write (Elt F) f w Finset.univ = w :=
  Memref.write_access_unit_zero_univ (Elt F) cc0_scratch0 hz _ f w
omit [FloatOps F] in
theorem write_out (f w : (cc0_stg1_0 : Ref sig .tc).ty.Contents (Elt F)) :
    ((oM : Memref sig .tc .vmem S256x256 .f32).access r0 : View sig .tc _ _ _).write (Elt F) f w Finset.univ = w :=
  Memref.write_access_unit_zero_univ (Elt F) cc0_stg1_0 hz _ f w

end Cert.KernelIdeal.AR

end
-- ==== Proof.Algebra.lean ====
import proofs.«900735_g7700000000000736_dist_ar_v7x_xyz2x4x4_z_m256_n256_bf16_1_alg».proof.Proof.Bufs

/-! The resource algebra of the proof (the pipeline library's copy of the rounds algebra beside one whose duties are named
by Fin 3), and the points-to assertions over the kernel's buffers: a slot of the receive buffer, a share of the buffer that
is sent, the staged block of x. -/

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- The indices of the receive buffer that slot k covers. -/
def slotSet (k : Fin 3) := match k with
  | 0 => (slot 0).view.set
  | 1 => (slot 1).view.set
  | 2 => (slot 2).view.set

/-- Slot k of device d's receive buffer, owned whole, at contents f (only f's values on the slot matter). -/
def slotPts (d : Dev nD) (k : Fin 3) (f : Buf (Elt F) ((d : Thread nD τ).loc cc0_scratch1)) : sProp 𝕄 :=
  ((d : Thread nD τ).loc cc0_scratch1) ↦[slotSet k]{fullShare} f

omit [FloatOps F] in
theorem slotPts_zero (d : Dev nD) (f : Buf (Elt F) ((d : Thread nD τ).loc cc0_scratch1)) :
    slotPts d 0 f = ((slot 0).view.loc (d : Thread nD τ) ↦[(slot 0).view.set]{fullShare} f : sProp 𝕄) := rfl
omit [FloatOps F] in
theorem slotPts_one (d : Dev nD) (f : Buf (Elt F) ((d : Thread nD τ).loc cc0_scratch1)) :
    slotPts d 1 f = ((slot 1).view.loc (d : Thread nD τ) ↦[(slot 1).view.set]{fullShare} f : sProp 𝕄) := rfl
omit [FloatOps F] in
theorem slotPts_two (d : Dev nD) (f : Buf (Elt F) ((d : Thread nD τ).loc cc0_scratch1)) :
    slotPts d 2 f = ((slot 2).view.loc (d : Thread nD τ) ↦[(slot 2).view.set]{fullShare} f : sProp 𝕄) := rfl

/-- A share q of device c's send buffer, holding what it sends. -/
def sPts (q : PosShare TreeShare) (c : Dev nD) : sProp 𝕄 :=
  (sM : Memref sig .tc .vmem S256x256 .bf16).view.loc (c : Thread nD τ) ↦[(sM : Memref sig .tc .vmem S256x256 .bf16).view.set]{q} sendVal m c

omit [FloatOps F] in
instance slotPts_storable (d : Dev nD) (k : Fin 3) (f) : BI.Storable (upEmb : UEmb _ 𝕄) (slotPts (F := F) d k f) := by unfold slotPts; infer_instance
instance sPts_storable (q : PosShare TreeShare) (c : Dev nD) : BI.Storable (upEmb : UEmb _ 𝕄) (sPts (F := F) m q c) := by unfold sPts; infer_instance

theorem sPts_eq (q : PosShare TreeShare) (c : Dev nD) : sPts m q c = (((c : Thread nD τ).loc cc0_scratch0) ↦{q} sendVal m c : sProp 𝕄) := by
  unfold sPts; rw [View.set_whole]

/-- The three shares of the send buffer the three copies read through: a half and two quarters. -/
abbrev shr : Fin 3 → PosShare TreeShare := fun
  | 0 => fullShare.left
  | 1 => fullShare.right.left
  | 2 => fullShare.right.right
  | ⟨_ + 3, h⟩ => absurd h (Nat.not_lt.2 (Nat.le_add_left _ _))

omit [FloatOps F] in
/-- The whole send buffer is its three shares. -/
theorem s_thirds (c : Dev nD) (f : (cc0_scratch0 : Ref sig .tc).ty.Contents (Elt F)) :
    ((((c : Thread nD τ).loc cc0_scratch0) ↦{fullShare} f : sProp 𝕄))
      ⊣⊢ iprop((((c : Thread nD τ).loc cc0_scratch0) ↦{shr 0} f) ∗ (((c : Thread nD τ).loc cc0_scratch0) ↦{shr 1} f) ∗ (((c : Thread nD τ).loc cc0_scratch0) ↦{shr 2} f)) :=
  (pointsTo_share (PosShare.mem_left_op_right fullShare)).trans
    (sep_congr_right (pointsTo_share (PosShare.mem_left_op_right fullShare.right)))

end Cert.KernelIdeal.AR

end
-- ==== Proof.Proto.lean ====
import proofs.«900735_g7700000000000736_dist_ar_v7x_xyz2x4x4_z_m256_n256_bf16_1_alg».proof.Proof.Algebra

/-! The protocol of the exchange, in the rounds discipline. Each device owns seven cells: its barrier cell, three send cells
and three receive cells. Everything happens in round 0. The barrier cell has three duties of one unit: duty k is paid by
the peer (pk k c), whose signal hands over slot k of ITS receive buffer (the slot c's k-th copy lands in) together with the
fact that its k-th receive cell has reached round 0. Receive cell k has one duty, the landing of the copy from (src k c): it
hands the slot back holding what that device sends. Send cell k has one duty, the same copy seen from the sender: it hands
back the share of the send buffer the copy read through. -/

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- The barrier semaphore of the collective, and the three send and three receive DMA semaphores. -/
abbrev barS : Sem sig := (SemArray.scalar (sig.barrier 0 rfl) : Sems sig S_).sem
abbrev sendS : Fin 3 → DmaSem sig := fun
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem
  | ⟨_ + 3, h⟩ => absurd h (Nat.not_lt.2 (Nat.le_add_left _ _))
abbrev recvS : Fin 3 → DmaSem sig := fun
  | 0 => ((cc0_scratch3.slice (Rect.unit (s := S3) ![0] S1.size inb_S3_S1_0)).squeeze S_ squeezes_S1_S_).sem
  | 1 => ((cc0_scratch3.slice (Rect.unit (s := S3) ![1] S1.size inb_S3_S1_1)).squeeze S_ squeezes_S1_S_).sem
  | 2 => ((cc0_scratch3.slice (Rect.unit (s := S3) ![2] S1.size inb_S3_S1_2)).squeeze S_ squeezes_S1_S_).sem
  | ⟨_ + 3, h⟩ => absurd h (Nat.not_lt.2 (Nat.le_add_left _ _))

abbrev barCell (c : Dev nD) : GSem nD τ sig := ((c : Thread nD τ), .reg barS)
abbrev sendCell (k : Fin 3) (c : Dev nD) : GSem nD τ sig := ((c : Thread nD τ), .dma (sendS k))
abbrev recvCell (k : Fin 3) (c : Dev nD) : GSem nD τ sig := ((c : Thread nD τ), .dma (recvS k))

/-- Which of a device's cells a semaphore is. -/
inductive CK where
  | bar | send (k : Fin 3) | recv (k : Fin 3) | none
  deriving DecidableEq

def ckOf : SemLoc sig → CK
  | .reg _ => .bar
  | .dma q => if q = sendS 0 then .send 0 else if q = sendS 1 then .send 1 else if q = sendS 2 then .send 2
      else if q = recvS 0 then .recv 0 else if q = recvS 1 then .recv 1 else if q = recvS 2 then .recv 2 else .none

theorem ck_bar : ckOf (.reg barS) = .bar := rfl
theorem ck_send (k : Fin 3) : ckOf (.dma (sendS k)) = .send k := by revert k; decide
theorem ck_recv (k : Fin 3) : ckOf (.dma (recvS k)) = .recv k := by revert k; decide

/-- The credit of one copy: the words of a 256 x 256 bf16 slot. -/
abbrev N : ℕ := (slot 0).view.dmaCredit
theorem N_pos : 0 < N := View.dmaCredit_pos _ (by decide)

/-! ## Contents -/

/-- A fixed buffer to write a landing over: only the slot's entries of the result are ever read. -/
def base (c : Dev nD) : Buf (Elt F) ((c : Thread nD τ).loc cc0_scratch1) := fun _ => sendVal m c (fun a => ⟨0, by fin_cases a <;> decide⟩)

/-- Slot k of device c's receive buffer after the landing of the copy from (src k c). -/
def landed (k : Fin 3) (c : Dev nD) : Buf (Elt F) ((c : Thread nD τ).loc cc0_scratch1) := match k with
  | 0 => (slot 0).view.write (Elt F) (base m c) ((sM : Memref sig .tc .vmem S256x256 .bf16).view.read (Elt F) (sendVal m (src 0 c))) Finset.univ
  | 1 => (slot 1).view.write (Elt F) (base m c) ((sM : Memref sig .tc .vmem S256x256 .bf16).view.read (Elt F) (sendVal m (src 1 c))) Finset.univ
  | 2 => (slot 2).view.write (Elt F) (base m c) ((sM : Memref sig .tc .vmem S256x256 .bf16).view.read (Elt F) (sendVal m (src 2 c))) Finset.univ

/-- What the load of rows [k] of the receive buffer returns after that landing. -/
def ldv (k : Fin 3) (c : Dev nD) : Vec F S1x256x256 .bf16 := match k with
  | 0 => (rM : Memref sig .tc .vmem S3x256x256 .bf16).view.readAt (Elt F) (rect 0).toLoadRect (landed m 0 c)
  | 1 => (rM : Memref sig .tc .vmem S3x256x256 .bf16).view.readAt (Elt F) (rect 1).toLoadRect (landed m 1 c)
  | 2 => (rM : Memref sig .tc .vmem S3x256x256 .bf16).view.readAt (Elt F) (rect 2).toLoadRect (landed m 2 c)

/-- The kernel's result on device c: its block plus the three landed blocks. -/
def outAt (c : Dev nD) : (cc0_stg1_0 : Ref sig .tc).ty.Contents (Elt F) := k0_pay1 (xstg m c) (ldv m 0 c) (ldv m 1 c) (ldv m 2 c)

/-! ## The schedule -/

def barPay (k : Fin 3) (c : Dev nD) : sProp 𝕄 := iprop(∃ f, slotPts (pk k c) k f)
def recvPay (k : Fin 3) (c : Dev nD) : sProp 𝕄 := slotPts c k (landed m k c)
def sendPay (k : Fin 3) (c : Dev nD) : sProp 𝕄 := sPts m (shr k) c

def sched : Rounds.Schedule (GSem nD τ sig) (Fin 3) 𝕄 where
  duties g r := if r = 0 ∧ g.1.2 = .tc then (match ckOf g.2 with | .bar => Finset.univ | .send _ => {0} | .recv _ => {0} | .none => ∅) else ∅
  unitless _ := False
  amount g _ _ := match ckOf g.2 with | .bar => 1 | _ => N
  payload g _ d := match ckOf g.2 with
    | .bar => barPay d g.1.1
    | .send k => sendPay m k g.1.1
    | .recv k => recvPay m k g.1.1
    | .none => iprop(emp)
  amount_pos g _ _ _ := by
    cases ckOf g.2 <;> first | exact Nat.one_pos | exact N_pos

instance sched_payload_storable (g : GSem nD τ sig) (r : ℕ) (d : Fin 3) :
    BI.Storable (upEmb : UEmb _ 𝕄) ((sched (F := F) m).payload g r d) := by
  show BI.Storable upEmb (match ckOf g.2 with
    | .bar => barPay d g.1.1
    | .send k => sendPay m k g.1.1
    | .recv k => recvPay m k g.1.1
    | .none => iprop(emp))
  unfold barPay recvPay sendPay
  cases ckOf g.2 <;> infer_instance

/-! ### The schedule's tables, cell by cell -/

section Sched
variable (c : Dev nD) (k : Fin 3)

theorem duties_bar : (sched (F := F) m).duties (barCell c) 0 = Finset.univ := by
  dsimp only [sched]; rw [if_pos ⟨rfl, rfl⟩, ck_bar]
theorem duties_send : (sched (F := F) m).duties (sendCell k c) 0 = {0} := by
  dsimp only [sched]; rw [if_pos ⟨rfl, rfl⟩, ck_send]
theorem duties_recv : (sched (F := F) m).duties (recvCell k c) 0 = {0} := by
  dsimp only [sched]; rw [if_pos ⟨rfl, rfl⟩, ck_recv]
theorem duties_later (g : GSem nD τ sig) : ∀ r, 1 ≤ r → (sched (F := F) m).duties g r = ∅ :=
  fun r hr => by dsimp only [sched]; rw [if_neg fun h => by omega]

theorem amount_bar (d : Fin 3) : (sched (F := F) m).amount (barCell c) 0 d = 1 := rfl
theorem amount_send (d : Fin 3) : (sched (F := F) m).amount (sendCell k c) 0 d = N := by dsimp only [sched]; rw [ck_send]
theorem amount_recv (d : Fin 3) : (sched (F := F) m).amount (recvCell k c) 0 d = N := by dsimp only [sched]; rw [ck_recv]

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell k c) 0 = N := by
  unfold Schedule.expect Schedule.amountOf; rw [duties_send, Finset.sum_singleton, amount_send]
theorem expect_recv : (sched (F := F) m).expect (recvCell k c) 0 = N := by
  unfold Schedule.expect Schedule.amountOf; rw [duties_recv, Finset.sum_singleton, amount_recv]

theorem payload_bar (d : Fin 3) : (sched (F := F) m).payload (barCell c) 0 d = barPay d c := rfl
theorem payload_send (d : Fin 3) : (sched (F := F) m).payload (sendCell k c) 0 d = sendPay m k c := by dsimp only [sched]; rw [ck_send]
theorem payload_recv (d : Fin 3) : (sched (F := F) m).payload (recvCell k c) 0 d = recvPay m k c := by dsimp only [sched]; rw [ck_recv]

/-- The rest of the barrier cell's round, no duty taken: the three peers' payloads. -/
theorem rest_bar : bigSep ((sched (F := F) m).duties (barCell c) 0 \ ∅) (fun d => (sched (F := F) m).payload (barCell c) 0 d)
    = iprop(barPay 0 c ∗ barPay 1 c ∗ barPay 2 c) := by
  rw [Finset.sdiff_empty, duties_bar, bigSep_univ_eq_bigSepL [0, 1, 2] (by decide) (by decide)]
  rfl
theorem rest_send : bigSep ((sched (F := F) m).duties (sendCell k c) 0 \ ∅) (fun d => (sched (F := F) m).payload (sendCell k c) 0 d) = sendPay m k c := by
  rw [Finset.sdiff_empty, duties_send, bigSep_singleton, payload_send]
theorem rest_recv : bigSep ((sched (F := F) m).duties (recvCell k c) 0 \ ∅) (fun d => (sched (F := F) m).payload (recvCell k c) 0 d) = recvPay m k c := by
  rw [Finset.sdiff_empty, duties_recv, bigSep_singleton, payload_recv]

end Sched

/-! ## What each device owes at launch; the levels -/

/-- What device c still owes, latest first: the three landings' credit (the last copy's first), then one unit to each peer's
    barrier cell. Each signal and each copy peels the last summand. -/
def R₂ (c : Dev nD) : CellTallies nD τ sig Unit := tallyAt (recvCell 2 (pk 2 c)) () N
def R₁ (c : Dev nD) : CellTallies nD τ sig Unit := R₂ c + tallyAt (recvCell 1 (pk 1 c)) () N
def R₀ (c : Dev nD) : CellTallies nD τ sig Unit := R₁ c + tallyAt (recvCell 0 (pk 0 c)) () N
def B₂ (c : Dev nD) : CellTallies nD τ sig Unit := R₀ c + tallyAt (barCell (pk 2 c)) () 1
def B₁ (c : Dev nD) : CellTallies nD τ sig Unit := B₂ c + tallyAt (barCell (pk 1 c)) () 1
def O₀ (c : Dev nD) : CellTallies nD τ sig Unit := B₁ c + tallyAt (barCell (pk 0 c)) () 1

def L (g : GSem nD τ sig) : Finset Unit := if g.1.2 = .tc then {()} else ∅
/-- Barrier cells at level 1, receive cells at 2, everything else (staging, send) at 0. -/
def lv (g : GSem nD τ sig) (_ : Unit) : ℕ := match ckOf g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (k : Fin 3) (c : Dev nD) : lv (recvCell k c) () = 2 := by dsimp only [lv]; rw [ck_recv]

theorem R₀_pos {c : Dev nD} {g : GSem nD τ sig} {u : Unit} (h : 0 < R₀ c g u) : ∃ k, g = recvCell k (pk k c) := by
  unfold R₀ R₁ R₂ at h
  simp only [Pi.add_apply, Finsupp.add_apply, tallyAt_apply] at h
  by_contra hn
  rw [not_exists] at hn
  rw [if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    (∃ k, g = recvCell k (pk k c)) ∨ (∃ k, g = barCell (pk k c)) := by
  unfold O₀ B₁ B₂ at h
  simp only [Pi.add_apply, Finsupp.add_apply, tallyAt_apply] at h
  by_cases hR : 0 < R₀ c g u
  · exact Or.inl (R₀_pos hR)
  · right
    by_contra hn
    rw [not_exists] at hn
    rw [if_neg (fun h' => hn 2 h'.1), if_neg (fun h' => hn 1 h'.1), if_neg (fun h' => hn 0 h'.1)] at h
    omega

/-- A staging cell (level 0) may be waited on whatever of its launch debt the device still owes. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; exact le_of_eq hq)
      (fun g u hg => by
        rcases O₀_pos hg with ⟨k, rfl⟩ | ⟨k, rfl⟩
        · rw [lv_recv]; decide
        · rw [lv_bar]; decide)
  · rw [MayWait_zero]; iintro -; iempintro

/-- At its barrier wait a device owes the three landings' credit only: receive cells, above its barrier cell. -/
theorem mayWait_bar (c : Dev nD) :
    (levAts L lv : sProp 𝕄) ⊢ MayWait (c : Thread nD τ) (.reg barS) () (R₀ c) :=
  MayOwe.of_cut (L := L) (lev := lv) 1 (fun p hp => by rw [Finset.mem_singleton.mp hp, L_tc]; exact Finset.mem_singleton_self _)
    (fun g u hg => by obtain ⟨k, rfl⟩ := R₀_pos hg; exact Finset.mem_singleton_self _)
    (fun p hp => by rw [Finset.mem_singleton.mp hp]; exact le_of_eq (lv_bar c))
    (fun g u hg => by obtain ⟨k, rfl⟩ := R₀_pos hg; rw [lv_recv]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A device's seven cells, as this proof indexes them: the barrier, the send cells 0 1 2, the receive cells 0 1 2. -/
abbrev csem : Fin 7 → SemLoc sig := fun
  | 0 => .reg barS | 1 => .dma (sendS 0) | 2 => .dma (sendS 1) | 3 => .dma (sendS 2)
  | 4 => .dma (recvS 0) | 5 => .dma (recvS 1) | 6 => .dma (recvS 2)
  | ⟨_ + 7, h⟩ => absurd h (Nat.not_lt.2 (Nat.le_add_left _ _))
abbrev kcell (ck : Dev nD × Fin 7) : GSem nD τ sig := ((ck.1 : Thread nD τ), csem ck.2)
/-- The kernel's OWN (scoped) semaphores, as the launch indexes them: the three send and the three receive semaphores. -/
abbrev osem : Fin 6 → SemLoc sig := fun
  | 0 => .dma (sendS 0) | 1 => .dma (sendS 1) | 2 => .dma (sendS 2)
  | 3 => .dma (recvS 0) | 4 => .dma (recvS 1) | 5 => .dma (recvS 2)
  | ⟨_ + 6, h⟩ => absurd h (Nat.not_lt.2 (Nat.le_add_left _ _))

/-- The cells' invariants device c's body opens, under the names K the launch allocated them at: its own seven, its
    three peers' barrier cells (its signals) and, of each peer (pk k c), receive cell k (its k-th copy). -/
def invs (K : Dev nD × Fin 7 → ℕ) (c : Dev nD) : sProp 𝕄 :=
  iprop(cellInv ER (sched m) (K (c, 0)) (barCell c)
    ∗ (cellInv ER (sched m) (K (c, 1)) (sendCell 0 c) ∗ cellInv ER (sched m) (K (c, 2)) (sendCell 1 c) ∗ cellInv ER (sched m) (K (c, 3)) (sendCell 2 c))
    ∗ (cellInv ER (sched m) (K (c, 4)) (recvCell 0 c) ∗ cellInv ER (sched m) (K (c, 5)) (recvCell 1 c) ∗ cellInv ER (sched m) (K (c, 6)) (recvCell 2 c))
    ∗ (cellInv ER (sched m) (K (pk 0 c, 0)) (barCell (pk 0 c)) ∗ cellInv ER (sched m) (K (pk 1 c, 0)) (barCell (pk 1 c)) ∗ cellInv ER (sched m) (K (pk 2 c, 0)) (barCell (pk 2 c)))
    ∗ (cellInv ER (sched m) (K (pk 0 c, 4)) (recvCell 0 (pk 0 c)) ∗ cellInv ER (sched m) (K (pk 1 c, 5)) (recvCell 1 (pk 1 c)) ∗ cellInv ER (sched m) (K (pk 2 c, 6)) (recvCell 2 (pk 2 c))))

instance invs_persistent (K : Dev nD × Fin 7 → ℕ) (c : Dev nD) : BI.Persistent (invs m K c) := by unfold invs; infer_instance

/-- Device c's positions: round 0, nothing taken, of each of its seven cells. -/
def posns (c : Dev nD) : sProp 𝕄 :=
  iprop(atPos ER (barCell c) 0 ∅ 0
    ∗ (atPos ER (sendCell 0 c) 0 ∅ 0 ∗ atPos ER (sendCell 1 c) 0 ∅ 0 ∗ atPos ER (sendCell 2 c) 0 ∅ 0)
    ∗ (atPos ER (recvCell 0 c) 0 ∅ 0 ∗ atPos ER (recvCell 1 c) 0 ∅ 0 ∗ atPos ER (recvCell 2 c) 0 ∅ 0))

/-- That round 0 is reached, of every cell device c pays into: its peers' barrier cells, its peers' receive cells, its
    own send cells. -/
def marks (c : Dev nD) : sProp 𝕄 :=
  iprop((reached ER (barCell (pk 0 c)) 0 ∗ reached ER (barCell (pk 1 c)) 0 ∗ reached ER (barCell (pk 2 c)) 0)
    ∗ (reached ER (recvCell 0 (pk 0 c)) 0 ∗ reached ER (recvCell 1 (pk 1 c)) 0 ∗ reached ER (recvCell 2 (pk 2 c)) 0)
    ∗ (reached ER (sendCell 0 c) 0 ∗ reached ER (sendCell 1 c) 0 ∗ reached ER (sendCell 2 c) 0))

instance marks_persistent (c : Dev nD) : BI.Persistent (marks (F := F) c) := by unfold marks; infer_instance

/-- The tokens of the duties device c pays: its j-th signal pays duty j.rev of (pk j c)'s barrier cell; its k-th copy
    pays the duty of receive cell k of (pk k c) and of its own send cell k. -/
def payToks (c : Dev nD) : sProp 𝕄 :=
  iprop((dutyTok ER (barCell (pk 0 c)) 0 2 ∗ dutyTok ER (barCell (pk 1 c)) 0 1 ∗ dutyTok ER (barCell (pk 2 c)) 0 0)
    ∗ (dutyTok ER (recvCell 0 (pk 0 c)) 0 0 ∗ dutyTok ER (recvCell 1 (pk 1 c)) 0 0 ∗ dutyTok ER (recvCell 2 (pk 2 c)) 0 0)
    ∗ (dutyTok ER (sendCell 0 c) 0 0 ∗ dutyTok ER (sendCell 1 c) 0 0 ∗ dutyTok ER (sendCell 2 c) 0 0))

/-- The ghost state device c's body starts from, at the names K. -/
def ghost (K : Dev nD × Fin 7 → ℕ) (c : Dev nD) : sProp 𝕄 :=
  iprop(invs m K c ∗ posns c ∗ marks c ∗ payToks c)

/-- The credit tokens of device c's waits: three units on its barrier cell, a copy's credit on each receive cell. -/
def creds (c : Dev nD) : sProp 𝕄 :=
  iprop(cred (tallyAt (barCell c) () 3)
    ∗ cred (tallyAt (recvCell 0 c) () N) ∗ cred (tallyAt (recvCell 1 c) () N) ∗ cred (tallyAt (recvCell 2 c) () N))

/-- What device c's body starts from, besides its buffers. -/
def start (c : Dev nD) : sProp 𝕄 :=
  iprop((∃ K, ghost m K c) ∗ creds c ∗ levAts L lv)

/-- The two scratch buffers at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scr c)
/-- After the point: the scratch buffers back, the six own cells at zero, closed. -/
def Φ₁ (c : Dev nD) : sProp 𝕄 :=
  iprop(scr c
    ∗ (semVal (sendCell 0 c) 0 ∗ semVal (sendCell 1 c) 0 ∗ semVal (sendCell 2 c) 0)
    ∗ (semVal (recvCell 0 c) 0 ∗ semVal (recvCell 1 c) 0 ∗ semVal (recvCell 2 c) 0))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device c starts from, the names chosen; -/
def bodyPre (K : Dev nD × Fin 7 → ℕ) (c : Dev nD) : sProp 𝕄 :=
  iprop((ghost m K c ∗ creds c ∗ levAts L lv ∗ scr c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- and what it ends with. -/
def bodyPost (c : Dev nD) : sProp 𝕄 :=
  iprop(Φ₁ c ∗ (dats m 0 c).owesAt () t₀.succ ∗ stg c cc0_stg0_0 (xstg m c) ∗ stg c cc0_stg1_0 (outAt m c))

end Cert.KernelIdeal.AR

end
-- ==== Proof.LaunchDefs.lean ====
import proofs.«900735_g7700000000000736_dist_ar_v7x_xyz2x4x4_z_m256_n256_bf16_1_alg».proof.Proof.Proto

/-! The launch's ghost state: the cells and the duty tokens the second rounds algebra starts from, what the launch element
deals each device (its seven cells' round states, positions and marks, and the nine duty tokens of its own cells), and
the kernel's semaphores at zero, the six scoped ones and the barrier semaphore. -/

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem csem_injective : ∀ k k' : Fin 7, csem k = csem k' → k = k' := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective k k' h2
  subst this; rfl
def ringCells : Finset (GSem nD τ sig) := Finset.univ.map ⟨kcell, kcell_injective⟩

/-- A device's own cells' duty tokens as minted: (device, which token) — its barrier cell's three duties, then the one duty
    of each send cell, then the one duty of each receive cell. -/
abbrev tokOf (cj : Dev nD × Fin 9) : GSem nD τ sig × ℕ × Fin 3 := match cj.2 with
  | 0 => (barCell cj.1, 0, 0) | 1 => (barCell cj.1, 0, 1) | 2 => (barCell cj.1, 0, 2)
  | 3 => (sendCell 0 cj.1, 0, 0) | 4 => (sendCell 1 cj.1, 0, 0) | 5 => (sendCell 2 cj.1, 0, 0)
  | 6 => (recvCell 0 cj.1, 0, 0) | 7 => (recvCell 1 cj.1, 0, 0) | 8 => (recvCell 2 cj.1, 0, 0)
  | ⟨_ + 9, h⟩ => absurd h (Nat.not_lt.2 (Nat.le_add_left _ _))

/-- Which cell, and which of its duties, token j is of. -/
def tokCell : Fin 9 → Fin 7 := ![0, 0, 0, 1, 2, 3, 4, 5, 6]
def tokDuty : Fin 9 → Fin 3 := ![0, 1, 2, 0, 0, 0, 0, 0, 0]
theorem tokOf_eq (c : Dev nD) (j : Fin 9) : tokOf (c, j) = (kcell (c, tokCell j), 0, tokDuty j) := by fin_cases j <;> rfl
theorem tokIx_injective : ∀ j j' : Fin 9, tokCell j = tokCell j' → tokDuty j = tokDuty j' → j = j' := by decide

theorem tokOf_injective : Function.Injective (tokOf : Dev nD × Fin 9 → GSem nD τ sig × ℕ × Fin 3) := by
  rintro ⟨c, j⟩ ⟨c', j'⟩ h
  rw [tokOf_eq, tokOf_eq] at h
  have h1 : ((c, tokCell j) : Dev nD × Fin 7) = (c', tokCell j') := kcell_injective (congrArg (fun x : GSem nD τ sig × ℕ × Fin 3 => x.1) h)
  have h2 : tokDuty j = tokDuty j' := congrArg (fun x : GSem nD τ sig × ℕ × Fin 3 => x.2.2) h
  have hc : c = c' := congrArg Prod.fst h1
  have hj : j = j' := tokIx_injective j j' (congrArg Prod.snd h1) h2
  rw [hc, hj]
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device c's own cells. -/
def toks (c : Dev nD) : sProp 𝕄 :=
  iprop((dutyTok ER (barCell c) 0 0 ∗ dutyTok ER (barCell c) 0 1 ∗ dutyTok ER (barCell c) 0 2)
    ∗ (dutyTok ER (sendCell 0 c) 0 0 ∗ dutyTok ER (sendCell 1 c) 0 0 ∗ dutyTok ER (sendCell 2 c) 0 0)
    ∗ (dutyTok ER (recvCell 0 c) 0 0 ∗ dutyTok ER (recvCell 1 c) 0 0 ∗ dutyTok ER (recvCell 2 c) 0 0))

/-- What the launch element deals device c. -/
def G (c : Dev nD) : sProp 𝕄 :=
  iprop((bigSep Finset.univ fun k : Fin 7 => roundState ER (sched m) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
/-- The three send and three receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0
        ∗ semVal (recvCell 0 c) 0 ∗ semVal (recvCell 1 c) 0 ∗ semVal (recvCell 2 c) 0) := by
  rw [Pipeline.ownSems0_eq_of_list c osem [0, 1, 2, 3, 4, 5] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- info: 'Cert.KernelIdeal.AR.ownSems0_eq' depends on axioms: [propext, Classical.choice, Quot.sound] -/
#guard_msgs in
#print axioms ownSems0_eq

end Cert.KernelIdeal.AR

end
-- ==== Proof.LaunchCred.lean ====
import proofs.«900735_g7700000000000736_dist_ar_v7x_xyz2x4x4_z_m256_n256_bf16_1_alg».proof.Proof.LaunchDefs

/-! The credit side of the launch. Each device owes, at launch, one unit to each of its three peers' barrier cells and a
copy's credit to one receive cell of each peer; summed over the devices, every barrier cell is owed three units and every
receive cell one copy's credit, and those are the credit tokens the launch deals the cell's owner. With them, the conditions
under which the launch theorem hands a device what its body starts from, and takes back what it ends with. -/

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The shares, and telling cells apart -/

theorem share_eq (c : Dev nD) (w : Fin cfg0.W) : (dats m 0 c).share w = fullShare := by unfold Dat.share; split <;> rfl

omit [FloatOps F] in
theorem bar_eq_iff {a b : Dev nD} : Iff (barCell a = barCell b) (a = b) :=
  ⟨fun h => Fin.ext (congrArg (fun g : GSem nD τ sig => g.1.1.val) h), fun h => h ▸ rfl⟩

omit [FloatOps F] in
theorem recv_eq_iff {k k' : Fin 3} {a b : Dev nD} : Iff (recvCell k a = recvCell k' b) (k = k' ∧ a = b) :=
  ⟨fun h => ⟨by
      have h2 : ckOf (.dma (recvS k)) = ckOf (.dma (recvS k')) := congrArg (fun g : GSem nD τ sig => ckOf g.2) h
      rw [ck_recv, ck_recv] at h2
      exact CK.recv.inj h2,
    Fin.ext (congrArg (fun g : GSem nD τ sig => g.1.1.val) h)⟩, fun ⟨h1, h2⟩ => h1 ▸ h2 ▸ rfl⟩

omit [FloatOps F] in
theorem recv_ne_bar (k : Fin 3) (a b : Dev nD) : recvCell k a ≠ barCell b := fun h => by
  have h2 : ckOf (.dma (recvS k)) = ckOf (.reg barS) := congrArg (fun g : GSem nD τ sig => ckOf g.2) h
  rw [ck_recv, ck_bar] at h2
  exact CK.noConfusion h2

/-! ## The launch credit -/

omit [FloatOps F] in
/-- Summed over the devices d, a quantity counted where the j-th peer of d is c is counted once: at d the (j.rev)-th
    peer of c. -/
theorem sum_peer (j : Fin 3) (c : Dev nD) (n : ℕ) : (∑ d : Dev nD, if pk j d = c then n else 0) = n := by
  have hiff : ∀ d : Dev nD, Iff (pk j d = c) (d = pk j.rev c) :=
    fun d => ⟨fun h => by rw [← h, pk_rev], fun h => by rw [h, rev_pk]⟩
  rw [Finset.sum_congr rfl fun d _ => if_congr (hiff d) rfl rfl, Finset.sum_ite_eq' Finset.univ (pk j.rev c) fun _ => n,
    if_pos (Finset.mem_univ _)]

omit [FloatOps F] in
/-- What device d owes device c's barrier cell: one unit for each of its three signals that addresses c. -/
theorem owed_bar (d c : Dev nD) :
    O₀ d (barCell c) () = (if pk 2 d = c then 1 else 0) + (if pk 1 d = c then 1 else 0) + (if pk 0 d = c then 1 else 0) := by
  unfold O₀ B₁ B₂ R₀ R₁ R₂
  simp only [Pi.add_apply, Finsupp.add_apply]
  rw [tallyAt_ne_cell (recv_ne_bar 2 _ _).symm, tallyAt_ne_cell (recv_ne_bar 1 _ _).symm, tallyAt_ne_cell (recv_ne_bar 0 _ _).symm,
    tallyAt_apply, tallyAt_apply, tallyAt_apply, Finsupp.zero_apply, Nat.zero_add, Nat.zero_add, Nat.zero_add]
  refine congrArg₂ _ (congrArg₂ _ ?_ ?_) ?_ <;>
    exact if_congr ⟨fun h => (bar_eq_iff.mp h.1).symm, fun h => ⟨h ▸ rfl, rfl⟩⟩ rfl rfl

omit [FloatOps F] in
/-- What device d owes receive cell k of device c: the credit of its k-th copy, if that copy addresses c. -/
theorem owed_recv (k : Fin 3) (d c : Dev nD) : O₀ d (recvCell k c) () = if pk k d = c then N else 0 := by
  unfold O₀ B₁ B₂ R₀ R₁ R₂
  simp only [Pi.add_apply, Finsupp.add_apply]
  rw [tallyAt_ne_cell (recv_ne_bar k c _), tallyAt_ne_cell (recv_ne_bar k c _), tallyAt_ne_cell (recv_ne_bar k c _),
    Finsupp.zero_apply, Nat.add_zero, Nat.add_zero, Nat.add_zero, tallyAt_apply, tallyAt_apply, tallyAt_apply]
  have hk : ∀ j : Fin 3, (if recvCell k c = recvCell j (pk j d) ∧ () = () then N else 0) = if k = j ∧ pk j d = c then N else 0 :=
    fun j => if_congr ⟨fun h => ⟨(recv_eq_iff.mp h.1).1, (recv_eq_iff.mp h.1).2.symm⟩, fun h => by obtain ⟨rfl, rfl⟩ := h; exact ⟨rfl, rfl⟩⟩ rfl rfl
  rw [hk 2, hk 1, hk 0]
  fin_cases k <;> simp

omit [FloatOps F] in
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_add_distrib, sum_peer, sum_peer, sum_peer]

omit [FloatOps F] in
theorem launch_recv (k : Fin 3) (c : Dev nD) :
    tallyOn (recvCell k c) (launchCredit (Pipeline.owing O₀) 0 (recvCell k c)) = (tallyAt (recvCell k c) () N : CellTallies nD τ sig Unit) := by
  unfold tallyAt; refine congrArg _ (Finsupp.ext fun u => ?_); cases u
  rw [Pipeline.launchCredit_owing, Finsupp.single_eq_same, Finset.sum_congr rfl fun d _ => owed_recv k d c, sum_peer]

omit [FloatOps F] in
/-- The launch's credit tokens of device c: the three units of its barrier cell, a copy's credit of each receive cell. -/
theorem creds_intro (c : Dev nD) : (Pipeline.launchCred O₀ c : sProp 𝕄) ⊢ creds c := by
  unfold Pipeline.launchCred creds
  rw [bigSep_univ_at _ (SemLoc.reg barS), launch_bar]
  refine sep_mono_right ?_
  rw [bigSep_erase (i := SemLoc.dma (recvS 0)) (Finset.mem_erase.mpr ⟨by decide, Finset.mem_univ _⟩), launch_recv 0]
  refine sep_mono_right ?_
  rw [bigSep_erase (i := SemLoc.dma (recvS 1)) (Finset.mem_erase.mpr ⟨by decide, Finset.mem_erase.mpr ⟨by decide, Finset.mem_univ _⟩⟩), launch_recv 1]
  refine sep_mono_right ?_
  rw [← launch_recv 2]
  exact bigSep_elim (Finset.mem_erase.mpr ⟨by decide, Finset.mem_erase.mpr ⟨by decide, Finset.mem_erase.mpr ⟨by decide, Finset.mem_univ _⟩⟩⟩)

/-! ## The theorem's side conditions -/

/-- What the launch hands device c — its levels, its credit tokens, its ghost state — is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ K, ghost m K c))
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scr
  iintro ⟨Hr, ⟨S0, S1, S2⟩, ⟨V0, V1, V2⟩⟩
  isplitr; · iempintro
  isplitr [Hr]
  · isplitl [S0]; · iexact S0
    isplitl [S1]; · iexact S1
    isplitl [S2]; · iexact S2
    isplitl [V0]; · iexact V0
    isplitl [V1]; · iexact V1
    iexact V2
  iexact Hr

/-- The staging cells sit at level 0, below everything a device owes at launch: it may wait on them at every point. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> rfl) _ (by
      rcases t with ⟨_ | _, ht⟩
      · exact Or.inl rfl
      · exact Or.inr rfl)

/-- info: 'Cert.KernelIdeal.AR.start_intro' depends on axioms: [propext, Classical.choice, Quot.sound] -/
#guard_msgs in #print axioms start_intro

end Cert.KernelIdeal.AR

end
-- ==== Proof.LaunchGhost.lean ====
import proofs.«900735_g7700000000000736_dist_ar_v7x_xyz2x4x4_z_m256_n256_bf16_1_alg».proof.Proof.LaunchDefs

/-! The ghost side of the launch. The second rounds algebra's launch element is dealt out device by device; with every
device's seven semaphores at zero each cell's invariant is allocated, all under one update; the invariants and the marks,
being persistent, are shared by every device, and the duty tokens are dealt to the devices that pay them: the token of duty d
of a barrier cell to the peer (pk d) of its owner, who is that owner's peer (pk d.rev) back, the token of receive cell k to
the device whose k-th copy lands there, the send tokens where they are. -/

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
/-- The nine tokens minted for device c's cells are its tokens, grouped cell kind by cell kind. -/
theorem toks_intro (c : Dev nD) : (bigSep Finset.univ fun j : Fin 9 => (dutyTok ER (tokOf (c, j)).1 (tokOf (c, j)).2.1 (tokOf (c, j)).2.2 : sProp 𝕄)) ⊢ toks c := by
  rw [bigSep_fin9]; unfold toks
  iintro ⟨H0, H1, H2, H3, H4, H5, H6, H7, H8⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6]; · iexact H6
  isplitl [H7]; · iexact H7
  iexact H8

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_intro (F := F) c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

omit [FloatOps F] in
/-- A device's seven semaphores at zero: its own six and the barrier semaphore. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨S0, S1, S2, R0, R1, R2⟩, HB⟩
  isplitl [HB]; · iexact HB
  isplitl [S0]; · iexact S0
  isplitl [S1]; · iexact S1
  isplitl [S2]; · iexact S2
  isplitl [R0]; · iexact R0
  isplitl [R1]; · iexact R1
  iexact R2

/-- Each of a device's seven cells' invariants allocated, under one update. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant, under the names K, and every cell's mark of round 0. -/
def records (K : Dev nD × Fin 7 → ℕ) : sProp 𝕄 :=
  iprop((bigSep Finset.univ fun ck : Dev nD × Fin 7 => cellInv ER (sched m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (sched m) (K ck) (kcell ck) : sProp 𝕄)) ⊢ cellInv ER (sched m) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- The invariants device c's body opens are among the records; -/
theorem invs_intro (K : Dev nD × Fin 7 → ℕ) (c : Dev nD) : records m K ⊢ invs m K c := by
  unfold records invs
  iintro ⟨#HI, #HR⟩
  isplitr; · iapply (inv_at m K (c, 0)); iexact HI
  isplitr
  · isplitr; · iapply (inv_at m K (c, 1)); iexact HI
    isplitr; · iapply (inv_at m K (c, 2)); iexact HI
    iapply (inv_at m K (c, 3)); iexact HI
  isplitr
  · isplitr; · iapply (inv_at m K (c, 4)); iexact HI
    isplitr; · iapply (inv_at m K (c, 5)); iexact HI
    iapply (inv_at m K (c, 6)); iexact HI
  isplitr
  · isplitr; · iapply (inv_at m K (pk 0 c, 0)); iexact HI
    isplitr; · iapply (inv_at m K (pk 1 c, 0)); iexact HI
    iapply (inv_at m K (pk 2 c, 0)); iexact HI
  isplitr; · iapply (inv_at m K (pk 0 c, 4)); iexact HI
  isplitr; · iapply (inv_at m K (pk 1 c, 5)); iexact HI
  iapply (inv_at m K (pk 2 c, 6)); iexact HI

/-- and so are the marks of the cells it pays into. -/
theorem marks_intro (K : Dev nD × Fin 7 → ℕ) (c : Dev nD) : records m K ⊢ marks c := by
  unfold records marks
  iintro ⟨#HI, #HR⟩
  isplitr
  · isplitr; · iapply (reached_at (F := F) (pk 0 c, 0)); iexact HR
    isplitr; · iapply (reached_at (F := F) (pk 1 c, 0)); iexact HR
    iapply (reached_at (F := F) (pk 2 c, 0)); iexact HR
  isplitr
  · isplitr; · iapply (reached_at (F := F) (pk 0 c, 4)); iexact HR
    isplitr; · iapply (reached_at (F := F) (pk 1 c, 5)); iexact HR
    iapply (reached_at (F := F) (pk 2 c, 6)); iexact HR
  isplitr; · iapply (reached_at (F := F) (c, 1)); iexact HR
  isplitr; · iapply (reached_at (F := F) (c, 2)); iexact HR
  iapply (reached_at (F := F) (c, 3)); iexact HR

/-- What stays with device c: its positions, and the tokens of the duties it pays. -/
def linear (c : Dev nD) : sProp 𝕄 := iprop(posns c ∗ payToks c)

theorem ghost_intro (K : Dev nD × Fin 7 → ℕ) (c : Dev nD) : iprop(records m K ∗ linear c) ⊢ G' m c := by
  unfold linear G' ghost
  iintro ⟨#HR, Hpos, Htok⟩
  iexists K
  isplitr; · iapply (invs_intro m K c); iexact HR
  isplitl [Hpos]; · iexact Hpos
  isplitr; · iapply (marks_intro m K c); iexact HR
  iexact Htok

omit [FloatOps F] in
/-- A device's seven positions, grouped cell kind by cell kind. -/
theorem posns_intro (c : Dev nD) : (bigSep Finset.univ fun k : Fin 7 => (atPos ER (kcell (c, k)) 0 ∅ 0 : sProp 𝕄)) ⊢ posns c := by
  rw [bigSep_fin7]; unfold posns
  iintro ⟨H0, H1, H2, H3, H4, H5, H6⟩
  isplitl [H0]; · iexact H0
  isplitl [H1 H2 H3]
  · isplitl [H1]; · iexact H1
    isplitl [H2]; · iexact H2
    iexact H3
  isplitl [H4]; · iexact H4
  isplitl [H5]; · iexact H5
  iexact H6

omit [FloatOps F] in
/-- The tokens dealt to their payers. Duty d of the barrier cell of c is paid by (pk d c), for whom c is (pk d.rev): summed
    over the devices along (pk d.rev), these are the tokens of the barrier cells of each device's peer d.rev, duty d. The
    token of receive cell k of c is paid by the device p with c = pk k p: summed along (pk k). The send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (pkEquiv 2) (fun c : Dev nD => (dutyTok ER (barCell c) 0 0 : sProp 𝕄)),
    bigSep_univ_equiv (pkEquiv 1) (fun c : Dev nD => (dutyTok ER (barCell c) 0 1 : sProp 𝕄)),
    bigSep_univ_equiv (pkEquiv 0) (fun c : Dev nD => (dutyTok ER (barCell c) 0 2 : sProp 𝕄)),
    bigSep_univ_equiv (pkEquiv 0) (fun c : Dev nD => (dutyTok ER (recvCell 0 c) 0 0 : sProp 𝕄)),
    bigSep_univ_equiv (pkEquiv 1) (fun c : Dev nD => (dutyTok ER (recvCell 1 c) 0 0 : sProp 𝕄)),
    bigSep_univ_equiv (pkEquiv 2) (fun c : Dev nD => (dutyTok ER (recvCell 2 c) 0 0 : sProp 𝕄))]
  iintro ⟨⟨B0, B1, B2⟩, ⟨S0, S1, S2⟩, R0, R1, R2⟩
  isplitl [B0 B1 B2]
  · isplitl [B2]; · iexact B2
    isplitl [B1]; · iexact B1
    iexact B0
  isplitl [R0 R1 R2]
  · isplitl [R0]; · iexact R0
    isplitl [R1]; · iexact R1
    iexact R2
  isplitl [S0]; · iexact S0
  isplitl [S1]; · iexact S1
  iexact S2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (sched m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from sep_mono_left (posns_intro (F := F) c)))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelIdeal.AR.glob' depends on axioms: [propext, Classical.choice, Quot.sound] -/
#guard_msgs in
#print axioms glob

/-- info: 'Cert.KernelIdeal.AR.fund_ring' depends on axioms: [propext, Classical.choice, Quot.sound] -/
#guard_msgs in
#print axioms fund_ring

end Cert.KernelIdeal.AR

end
-- ==== Proof.Run.lean ====
import proofs.«900735_g7700000000000736_dist_ar_v7x_xyz2x4x4_z_m256_n256_bf16_1_alg».proof.Proof.LaunchCred
import proofs.«900735_g7700000000000736_dist_ar_v7x_xyz2x4x4_z_m256_n256_bf16_1_alg».proof.Proof.LaunchGhost

/-! The run. The launch theorem for kernels that owe at launch and share cells between devices, applied to this program:
from any memory with zero counters every weakly fair execution of the thirty-two kernels terminates, and every final state
has each device's arrays at the contents the proof data computes. One device's body obligation is taken as a hypothesis. -/

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The contents of device c's arrays after the run, as the proof data has them. -/
def finalA (c : Dev nD) (w : Fin cfg0.W) : Buf (Elt F) ((cfg0.win w).arr.view.loc (c : Thread nD τ)) := (dats m 0 c).arrAt w cfg0.N

/-- Every device's arrays hold those contents. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the mesh of thirty-two devices, for any float values, from any memory with zero counters: every weakly fair execution
    of the program — each device signalling its three peers, waiting for theirs, copying its truncated block into a slot of
    each peer's receive buffer, and summing what landed — terminates, and every final state has each device's arrays at the
    computed contents. -/
theorem run_main
    (hbody : ∀ c, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.AR.run_main' depends on axioms: [propext, Classical.choice, Quot.sound] -/
#guard_msgs in #print axioms run_main

end Cert.KernelIdeal.AR

end
-- ==== Proof.Slots.lean ====
import proofs.«900735_g7700000000000736_dist_ar_v7x_xyz2x4x4_z_m256_n256_bf16_1_alg».proof.Proof.Algebra

/-! The three slots of the receive buffer as regions of one buffer: slot k is the set of indices whose first coordinate
is k; the three sets are pairwise disjoint and cover the buffer, so the whole buffer splits into the three slots and three
slots at any contents join to the whole buffer; what a copy lands in a slot does not depend on what the slot held; and a load
of the rows [k] of the buffer, cast to 256 x 256, reads what was landed in slot k. -/

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
/-- An index of the buffer lies in the rows [k] exactly when its first coordinate is k. -/
theorem mem_rect (k : Fin 3) (i : S3x256x256.Idx) : i ∈ (rect k).set ↔ (i 0).val = k.val := by
  have h1 : (i 1).val < 256 := (i 1).isLt
  have h2 : (i 2).val < 256 := (i 2).isLt
  fin_cases k
  · show i ∈ (Rect.unit (s := S3x256x256) ![0, 0, 0] S1x256x256.size inb_S3x256x256_S1x256x256_0_0_0).set ↔ (i 0).val = 0
    rw [Rect.mem_set_unit]
    constructor
    · intro h
      have h0 : 0 ≤ (i 0).val ∧ (i 0).val < 0 + 1 := h 0
      omega
    · intro h a
      match a with
      | ⟨0, _⟩ => show 0 ≤ (i 0).val ∧ (i 0).val < 0 + 1; omega
      | ⟨1, _⟩ => show 0 ≤ (i 1).val ∧ (i 1).val < 0 + 256; omega
      | ⟨2, _⟩ => show 0 ≤ (i 2).val ∧ (i 2).val < 0 + 256; omega
  · show i ∈ (Rect.unit (s := S3x256x256) ![1, 0, 0] S1x256x256.size inb_S3x256x256_S1x256x256_1_0_0).set ↔ (i 0).val = 1
    rw [Rect.mem_set_unit]
    constructor
    · intro h
      have h0 : 1 ≤ (i 0).val ∧ (i 0).val < 1 + 1 := h 0
      omega
    · intro h a
      match a with
      | ⟨0, _⟩ => show 1 ≤ (i 0).val ∧ (i 0).val < 1 + 1; omega
      | ⟨1, _⟩ => show 0 ≤ (i 1).val ∧ (i 1).val < 0 + 256; omega
      | ⟨2, _⟩ => show 0 ≤ (i 2).val ∧ (i 2).val < 0 + 256; omega
  · show i ∈ (Rect.unit (s := S3x256x256) ![2, 0, 0] S1x256x256.size inb_S3x256x256_S1x256x256_2_0_0).set ↔ (i 0).val = 2
    rw [Rect.mem_set_unit]
    constructor
    · intro h
      have h0 : 2 ≤ (i 0).val ∧ (i 0).val < 2 + 1 := h 0
      omega
    · intro h a
      match a with
      | ⟨0, _⟩ => show 2 ≤ (i 0).val ∧ (i 0).val < 2 + 1; omega
      | ⟨1, _⟩ => show 0 ≤ (i 1).val ∧ (i 1).val < 0 + 256; omega
      | ⟨2, _⟩ => show 0 ≤ (i 2).val ∧ (i 2).val < 0 + 256; omega

omit [FloatOps F] in
/-- The elements of the buffer under slot k's view are the rows [k]. -/
theorem slot_set0 : (slot 0).view.set = (rect 0).set := by
  show ((View.whole cc0_scratch1).slice (rect 0) |>.reshape S256x256 _).set = _
  rw [View.set_reshape, View.set_slice_whole]
omit [FloatOps F] in
theorem slot_set1 : (slot 1).view.set = (rect 1).set := by
  show ((View.whole cc0_scratch1).slice (rect 1) |>.reshape S256x256 _).set = _
  rw [View.set_reshape, View.set_slice_whole]
omit [FloatOps F] in
theorem slot_set2 : (slot 2).view.set = (rect 2).set := by
  show ((View.whole cc0_scratch1).slice (rect 2) |>.reshape S256x256 _).set = _
  rw [View.set_reshape, View.set_slice_whole]

omit [FloatOps F] in
theorem slotSet_eq (k : Fin 3) : slotSet k = (rect k).set := by
  fin_cases k
  · exact slot_set0
  · exact slot_set1
  · exact slot_set2

omit [FloatOps F] in
/-- An index of the receive buffer lies in slot k exactly when its first coordinate is k. -/
theorem mem_slotSet (k : Fin 3) (i : S3x256x256.Idx) : i ∈ slotSet k ↔ (i 0).val = k.val := by
  rw [slotSet_eq]; exact mem_rect k i

omit [FloatOps F] in
/-- Two different slots share no index. -/
theorem slotSet_disjoint {k k' : Fin 3} (h : k ≠ k') : Disjoint (slotSet k) (slotSet k') :=
  Finset.disjoint_left.mpr fun i hi hi' => h (Fin.ext (((mem_slotSet k i).mp hi).symm.trans ((mem_slotSet k' i).mp hi')))

omit [FloatOps F] in
/-- The three slots cover the receive buffer. -/
theorem slotSet_cover : slotSet 0 ∪ (slotSet 1 ∪ slotSet 2) = (Finset.univ : Finset S3x256x256.Idx) := by
  ext i
  have h0 : (i 0).val < 3 := (i 0).isLt
  refine ⟨fun _ => Finset.mem_univ i, fun _ => ?_⟩
  rcases (show (i 0).val = 0 ∨ (i 0).val = 1 ∨ (i 0).val = 2 by omega) with h | h | h
  · exact Finset.mem_union_left _ ((mem_slotSet 0 i).mpr h)
  · exact Finset.mem_union_right _ (Finset.mem_union_left _ ((mem_slotSet 1 i).mpr h))
  · exact Finset.mem_union_right _ (Finset.mem_union_right _ ((mem_slotSet 2 i).mpr h))

omit [FloatOps F] in
/-- The whole receive buffer is its three slots. -/
theorem slot_split (d : Dev nD) (f : Buf (Elt F) ((d : Thread nD τ).loc cc0_scratch1)) :
    ((((d : Thread nD τ).loc cc0_scratch1) ↦{fullShare} f : sProp 𝕄))
      ⊣⊢ iprop(slotPts d 0 f ∗ slotPts d 1 f ∗ slotPts d 2 f) := by
  have hu : ((((d : Thread nD τ).loc cc0_scratch1) ↦{fullShare} f : sProp 𝕄))
      = (((d : Thread nD τ).loc cc0_scratch1) ↦[slotSet 0 ∪ (slotSet 1 ∪ slotSet 2)]{fullShare} f) :=
    congrArg (fun I => ((((d : Thread nD τ).loc cc0_scratch1) ↦[I]{fullShare} f : sProp 𝕄))) slotSet_cover.symm
  rw [hu]
  unfold slotPts
  exact (pointsTo_union (Finset.disjoint_union_right.mpr ⟨slotSet_disjoint (by decide), slotSet_disjoint (by decide)⟩)).trans
    (sep_congr_right (pointsTo_union (slotSet_disjoint (by decide))))

/-- Three contents of the receive buffer pieced together: on slot k, the k-th. -/
def joined (f0 f1 f2 : S3x256x256.Idx → Elt F .bf16) : S3x256x256.Idx → Elt F .bf16 :=
  fun i => if (i 0).val = 0 then f0 i else if (i 0).val = 1 then f1 i else f2 i

omit [FloatOps F] in
theorem joined_of_mem0 (f0 f1 f2 : S3x256x256.Idx → Elt F .bf16) {i : S3x256x256.Idx} (h : i ∈ slotSet 0) : joined f0 f1 f2 i = f0 i := by
  have h0 : (i 0).val = 0 := (mem_slotSet 0 i).mp h
  unfold joined; rw [if_pos h0]
omit [FloatOps F] in
theorem joined_of_mem1 (f0 f1 f2 : S3x256x256.Idx → Elt F .bf16) {i : S3x256x256.Idx} (h : i ∈ slotSet 1) : joined f0 f1 f2 i = f1 i := by
  have h0 : (i 0).val = 1 := (mem_slotSet 1 i).mp h
  unfold joined; rw [if_neg (by omega), if_pos h0]
omit [FloatOps F] in
theorem joined_of_mem2 (f0 f1 f2 : S3x256x256.Idx → Elt F .bf16) {i : S3x256x256.Idx} (h : i ∈ slotSet 2) : joined f0 f1 f2 i = f2 i := by
  have h0 : (i 0).val = 2 := (mem_slotSet 2 i).mp h
  unfold joined; rw [if_neg (by omega), if_neg (by omega)]

omit [FloatOps F] in
/-- Three slots at three different contents are the whole receive buffer at the contents pieced together. -/
theorem slot_join_joined (d : Dev nD) (f0 f1 f2 : Buf (Elt F) ((d : Thread nD τ).loc cc0_scratch1)) :
    iprop(slotPts d 0 f0 ∗ slotPts d 1 f1 ∗ slotPts d 2 f2)
      ⊢ ((((d : Thread nD τ).loc cc0_scratch1) ↦{fullShare} joined f0 f1 f2 : sProp 𝕄)) := by
  have e0 : slotPts (F := F) d 0 f0 = slotPts d 0 (joined f0 f1 f2) := by
    unfold slotPts; exact pointsTo_congr fun i hi => (joined_of_mem0 f0 f1 f2 hi).symm
  have e1 : slotPts (F := F) d 1 f1 = slotPts d 1 (joined f0 f1 f2) := by
    unfold slotPts; exact pointsTo_congr fun i hi => (joined_of_mem1 f0 f1 f2 hi).symm
  have e2 : slotPts (F := F) d 2 f2 = slotPts d 2 (joined f0 f1 f2) := by
    unfold slotPts; exact pointsTo_congr fun i hi => (joined_of_mem2 f0 f1 f2 hi).symm
  rw [e0, e1, e2]
  exact (slot_split d (joined f0 f1 f2)).2

omit [FloatOps F] in
/-- Three slots at any contents are the whole receive buffer at some contents. -/
theorem slot_join (d : Dev nD) (f0 f1 f2 : Buf (Elt F) ((d : Thread nD τ).loc cc0_scratch1)) :
    iprop(slotPts d 0 f0 ∗ slotPts d 1 f1 ∗ slotPts d 2 f2)
      ⊢ (iprop(∃ f, (((d : Thread nD τ).loc cc0_scratch1) ↦{fullShare} f)) : sProp 𝕄) :=
  (slot_join_joined d f0 f1 f2).trans (exists_intro (Φ := fun f => ((((d : Thread nD τ).loc cc0_scratch1) ↦{fullShare} f : sProp 𝕄))) (joined f0 f1 f2))

omit [FloatOps F] in
/-- What lands in a slot does not depend on what the slot held before: a write on every index of the slot's view
replaces all the slot's elements. -/
theorem landed_congr0 (d : Dev nD) (fd fd' : Buf (Elt F) ((d : Thread nD τ).loc cc0_scratch1)) (v : S256x256.Idx → Elt F .bf16) :
    slotPts d 0 ((slot 0).view.write (Elt F) fd v Finset.univ) = slotPts d 0 ((slot 0).view.write (Elt F) fd' v Finset.univ) := by
  rw [slotPts_zero, slotPts_zero]
  exact pointsTo_congr fun i hi => View.write_congr (fun _ _ _ => rfl) (fun h => absurd hi h)
omit [FloatOps F] in
theorem landed_congr1 (d : Dev nD) (fd fd' : Buf (Elt F) ((d : Thread nD τ).loc cc0_scratch1)) (v : S256x256.Idx → Elt F .bf16) :
    slotPts d 1 ((slot 1).view.write (Elt F) fd v Finset.univ) = slotPts d 1 ((slot 1).view.write (Elt F) fd' v Finset.univ) := by
  rw [slotPts_one, slotPts_one]
  exact pointsTo_congr fun i hi => View.write_congr (fun _ _ _ => rfl) (fun h => absurd hi h)
omit [FloatOps F] in
theorem landed_congr2 (d : Dev nD) (fd fd' : Buf (Elt F) ((d : Thread nD τ).loc cc0_scratch1)) (v : S256x256.Idx → Elt F .bf16) :
    slotPts d 2 ((slot 2).view.write (Elt F) fd v Finset.univ) = slotPts d 2 ((slot 2).view.write (Elt F) fd' v Finset.univ) := by
  rw [slotPts_two, slotPts_two]
  exact pointsTo_congr fun i hi => View.write_congr (fun _ _ _ => rfl) (fun h => absurd hi h)

omit [FloatOps F] in
/-- The load of the rows [k] of the receive buffer, cast to 256 x 256, reads the buffer through slot k's view: both
place the index (i, j) at (k, i, j). -/
theorem load_cast0 (L : S3x256x256.Idx → Elt F .bf16) :
    shapeCast S256x256 ((rM : Memref sig .tc .vmem S3x256x256 .bf16).view.readAt (Elt F) (rect 0).toLoadRect L) shapeCasts_S1x256x256_S256x256
      = (slot 0).view.read (Elt F) L := rfl
omit [FloatOps F] in
theorem load_cast1 (L : S3x256x256.Idx → Elt F .bf16) :
    shapeCast S256x256 ((rM : Memref sig .tc .vmem S3x256x256 .bf16).view.readAt (Elt F) (rect 1).toLoadRect L) shapeCasts_S1x256x256_S256x256
      = (slot 1).view.read (Elt F) L := rfl
omit [FloatOps F] in
theorem load_cast2 (L : S3x256x256.Idx → Elt F .bf16) :
    shapeCast S256x256 ((rM : Memref sig .tc .vmem S3x256x256 .bf16).view.readAt (Elt F) (rect 2).toLoadRect L) shapeCasts_S1x256x256_S256x256
      = (slot 2).view.read (Elt F) L := rfl

omit [FloatOps F] in
/-- When the receive buffer holds, on slot k, what a copy of w landed there, the load of the rows [k], cast to
256 x 256, is w. -/
theorem read_slot0 (L fd : S3x256x256.Idx → Elt F .bf16) (w : S256x256.Idx → Elt F .bf16)
    (hL : ∀ i ∈ slotSet 0, L i = (slot 0).view.write (Elt F) fd w Finset.univ i) :
    shapeCast S256x256 ((rM : Memref sig .tc .vmem S3x256x256 .bf16).view.readAt (Elt F) (rect 0).toLoadRect L) shapeCasts_S1x256x256_S256x256 = w := by
  rw [load_cast0, View.read_congr (v := (slot 0).view) hL]
  exact View.read_write_univ (v := (slot 0).view) fd w
omit [FloatOps F] in
theorem read_slot1 (L fd : S3x256x256.Idx → Elt F .bf16) (w : S256x256.Idx → Elt F .bf16)
    (hL : ∀ i ∈ slotSet 1, L i = (slot 1).view.write (Elt F) fd w Finset.univ i) :
    shapeCast S256x256 ((rM : Memref sig .tc .vmem S3x256x256 .bf16).view.readAt (Elt F) (rect 1).toLoadRect L) shapeCasts_S1x256x256_S256x256 = w := by
  rw [load_cast1, View.read_congr (v := (slot 1).view) hL]
  exact View.read_write_univ (v := (slot 1).view) fd w
omit [FloatOps F] in
theorem read_slot2 (L fd : S3x256x256.Idx → Elt F .bf16) (w : S256x256.Idx → Elt F .bf16)
    (hL : ∀ i ∈ slotSet 2, L i = (slot 2).view.write (Elt F) fd w Finset.univ i) :
    shapeCast S256x256 ((rM : Memref sig .tc .vmem S3x256x256 .bf16).view.readAt (Elt F) (rect 2).toLoadRect L) shapeCasts_S1x256x256_S256x256 = w := by
  rw [load_cast2, View.read_congr (v := (slot 2).view) hL]
  exact View.read_write_univ (v := (slot 2).view) fd w

omit [FloatOps F] in
/-- The landed form itself: the buffer is the landing of what the sender's buffer reads. -/
theorem read_landed0 (fd : S3x256x256.Idx → Elt F .bf16) (fs : S256x256.Idx → Elt F .bf16) :
    shapeCast S256x256 ((rM : Memref sig .tc .vmem S3x256x256 .bf16).view.readAt (Elt F) (rect 0).toLoadRect
      ((slot 0).view.write (Elt F) fd ((sM : Memref sig .tc .vmem S256x256 .bf16).view.read (Elt F) fs) Finset.univ)) shapeCasts_S1x256x256_S256x256 = fs :=
  read_slot0 _ fd _ fun _ _ => rfl
omit [FloatOps F] in
theorem read_landed1 (fd : S3x256x256.Idx → Elt F .bf16) (fs : S256x256.Idx → Elt F .bf16) :
    shapeCast S256x256 ((rM : Memref sig .tc .vmem S3x256x256 .bf16).view.readAt (Elt F) (rect 1).toLoadRect
      ((slot 1).view.write (Elt F) fd ((sM : Memref sig .tc .vmem S256x256 .bf16).view.read (Elt F) fs) Finset.univ)) shapeCasts_S1x256x256_S256x256 = fs :=
  read_slot1 _ fd _ fun _ _ => rfl
omit [FloatOps F] in
theorem read_landed2 (fd : S3x256x256.Idx → Elt F .bf16) (fs : S256x256.Idx → Elt F .bf16) :
    shapeCast S256x256 ((rM : Memref sig .tc .vmem S3x256x256 .bf16).view.readAt (Elt F) (rect 2).toLoadRect
      ((slot 2).view.write (Elt F) fd ((sM : Memref sig .tc .vmem S256x256 .bf16).view.read (Elt F) fs) Finset.univ)) shapeCasts_S1x256x256_S256x256 = fs :=
  read_slot2 _ fd _ fun _ _ => rfl

omit [FloatOps F] in
/-- What the load of the rows [k] reads lies in slot k: the side condition of the load rule against slot k's region. -/
theorem load_sub (k : Fin 3) : (rM : Memref sig .tc .vmem S3x256x256 .bf16).view.setOn (rect k).toLoadRect.set ⊆ slotSet k := by
  rw [slotSet_eq]
  show Finset.map (Function.Embedding.refl _) (rect k).set ⊆ (rect k).set
  rw [Finset.map_refl]

end Cert.KernelIdeal.AR

end
-- ==== Proof.Body.lean ====
import proofs.«900735_g7700000000000736_dist_ar_v7x_xyz2x4x4_z_m256_n256_bf16_1_alg».proof.Proof.Proto
import proofs.«900735_g7700000000000736_dist_ar_v7x_xyz2x4x4_z_m256_n256_bf16_1_alg».proof.Proof.Slots

/-! One device's kernel body, stepped from the protocol's invariant: three signals to the peers' barrier cells (each hands
over one slot of the receive buffer), the wait for the three peers' signals (each hands over the slot of THEIR receive
buffer this device writes), the block truncated into the send buffer, three copies out of it (each through its own share),
the six waits (shares and landed slots back), and the sum of the own block and the three landed ones. -/

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body

variable (K : Dev nD × Fin 7 → ℕ)

/-- What the j-th signal of device c hands the peer (pk j c): slot j.rev of c's own receive buffer. -/
theorem payload_bar_peer0 (c : Dev nD) : (sched (F := F) m).payload (barCell (pk 0 c)) 0 2 = iprop(∃ f, slotPts c 2 f) := by
  rw [payload_bar]; unfold barPay; rw [show pk 2 (pk 0 c) = c from pk_rev 0 c]
theorem payload_bar_peer1 (c : Dev nD) : (sched (F := F) m).payload (barCell (pk 1 c)) 0 1 = iprop(∃ f, slotPts c 1 f) := by
  rw [payload_bar]; unfold barPay; rw [show pk 1 (pk 1 c) = c from pk_rev 1 c]
theorem payload_bar_peer2 (c : Dev nD) : (sched (F := F) m).payload (barCell (pk 2 c)) 0 0 = iprop(∃ f, slotPts c 0 f) := by
  rw [payload_bar]; unfold barPay; rw [show pk 0 (pk 2 c) = c from pk_rev 2 c]

omit [FloatOps F] in
/-- A whole buffer's points-to, stated through its memref's view. -/
theorem whole_pts (b : Ref sig .tc) (c : Dev nD) (q : PosShare TreeShare) (f : Buf (Elt F) ((c : Thread nD τ).loc b)) :
    (((Memref.whole b : Memref sig .tc b.space b.ty.shape b.ty.elt).view.loc (c : Thread nD τ)) ↦[(Memref.whole b : Memref sig .tc b.space b.ty.shape b.ty.elt).view.set]{q} f : sProp 𝕄)
      = ((((c : Thread nD τ).loc b) ↦{q} f) : sProp 𝕄) := by
  rw [View.set_whole]

omit [FloatOps F] in
/-- The three peers' payloads of a barrier round, one by one. -/
theorem bar_pays (c : Dev nD) : bigSep Finset.univ (fun d : Fin 3 => (barPay (F := F) d c : sProp 𝕄)) = iprop(barPay 0 c ∗ barPay 1 c ∗ barPay 2 c) := by
  rw [bigSep_univ_eq_bigSepL [0, 1, 2] (by decide) (by decide)]
  rfl

set_option maxHeartbeats 1000000 in
/-- The k = 0 copy: out of share 0 of the send buffer into slot 0 of the peer (pk 0 c), whose receive cell 0 it credits. -/
theorem wp_send0 (c n : Dev nD) (hn : n = pk 0 c)
    {hsc : (slot 0 : Memref sig (Dev.tc n : Thread nD τ).2.kind .vmem S256x256 .bf16).view.ref.isScScratch = false}
    {hsrc : (sM : Memref sig .tc .vmem S256x256 .bf16).view.WordExact} {hdst : (slot 0 : Memref sig .tc .vmem S256x256 .bf16).view.WordExact}
    {hsem : DmaTarget.Typed .vmem (.dma (recvS 0)) (.remote (Dev.tc n : Thread nD τ) (slot 0 : Memref sig .tc .vmem S256x256 .bf16) (.dma (sendS 0)) hsc)}
    {α : Type} {Q : α → sProp 𝕄} {k' : PUnit → Prog (TpuEff nD τ sig (Elt F) Λ₀ .tc) α}
    (fn : Buf (Elt F) (((pk 0 c : Dev nD) : Thread nD τ).loc cc0_scratch1)) (O : CellTallies nD τ sig Unit) (W : Waits sig Unit) :
    iprop(cellInv ER (sched m) (K (c, 1)) (sendCell 0 c) ∗ cellInv ER (sched m) (K (pk 0 c, 4)) (recvCell 0 (pk 0 c))
        ∗ sPts m (shr 0) c ∗ slotPts (pk 0 c) 0 fn
        ∗ owes (c : Thread nD τ) (O + tallyAt (recvCell 0 (pk 0 c)) () N) W
        ∗ dutyTok ER (sendCell 0 c) 0 0 ∗ reached ER (sendCell 0 c) 0
        ∗ dutyTok ER (recvCell 0 (pk 0 c)) 0 0 ∗ reached ER (recvCell 0 (pk 0 c)) 0)
      ⊢ iprop(((cred (tallyAt (sendCell 0 c) () N) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma sM (.remote (Dev.tc n : Thread nD τ) (slot 0) (.dma (sendS 0)) hsc) (.dma (recvS 0)) hsrc hdst hsem) k') Q) := by
  subst hn
  have hland : landed m 0 (pk 0 c) = (slot 0).view.write (Elt F) (base m (pk 0 c))
      ((sM : Memref sig .tc .vmem S256x256 .bf16).view.read (Elt F) (sendVal m c)) Finset.univ := by
    show (slot 0).view.write (Elt F) (base m (pk 0 c))
      ((sM : Memref sig .tc .vmem S256x256 .bf16).view.read (Elt F) (sendVal m (src 0 (pk 0 c)))) Finset.univ = _
    rw [show src 0 (pk 0 c) = c from pk_rev 0 c]
  unfold sPts
  rw [slotPts_zero]
  exact Rounds.wp_send_pointsTo 𝒱₀ ER (sched m) (c : Thread nD τ) none (κ₁ := K (c, 1)) (κ₂ := K (pk 0 c, 4))
    (c' := ((pk 0 c : Dev nD) : Thread nD τ)) (src := (sM : Memref sig .tc .vmem S256x256 .bf16)) (dst := (slot 0 : Memref sig .tc .vmem S256x256 .bf16))
    (sS := .dma (sendS 0)) (sem := .dma (recvS 0)) (q := shr 0) (fs := sendVal m c)
    (r₁ := 0) (r₂ := 0) (d₁ := 0) (d₂ := 0) (fd := fn)
    (by rw [duties_send]; exact Finset.mem_singleton_self _) (by rw [duties_recv]; exact Finset.mem_singleton_self _)
    () () N rfl (amount_send m c 0 0) (amount_recv m (pk 0 c) 0 0) O rfl (W := W)
    (by rw [payload_send]; unfold sendPay sPts; exact BI.Entails.refl _)
    (by rw [payload_recv]; unfold recvPay
        rw [hland, ← slotPts_zero, landed_congr0 (pk 0 c) fn (base m (pk 0 c))]
        try exact BI.Entails.refl _)

set_option maxHeartbeats 1000000 in
/-- The k = 1 copy: out of share 1 of the send buffer into slot 1 of the peer (pk 1 c), whose receive cell 1 it credits. -/
theorem wp_send1 (c n : Dev nD) (hn : n = pk 1 c)
    {hsc : (slot 1 : Memref sig (Dev.tc n : Thread nD τ).2.kind .vmem S256x256 .bf16).view.ref.isScScratch = false}
    {hsrc : (sM : Memref sig .tc .vmem S256x256 .bf16).view.WordExact} {hdst : (slot 1 : Memref sig .tc .vmem S256x256 .bf16).view.WordExact}
    {hsem : DmaTarget.Typed .vmem (.dma (recvS 1)) (.remote (Dev.tc n : Thread nD τ) (slot 1 : Memref sig .tc .vmem S256x256 .bf16) (.dma (sendS 1)) hsc)}
    {α : Type} {Q : α → sProp 𝕄} {k' : PUnit → Prog (TpuEff nD τ sig (Elt F) Λ₀ .tc) α}
    (fn : Buf (Elt F) (((pk 1 c : Dev nD) : Thread nD τ).loc cc0_scratch1)) (O : CellTallies nD τ sig Unit) (W : Waits sig Unit) :
    iprop(cellInv ER (sched m) (K (c, 2)) (sendCell 1 c) ∗ cellInv ER (sched m) (K (pk 1 c, 5)) (recvCell 1 (pk 1 c))
        ∗ sPts m (shr 1) c ∗ slotPts (pk 1 c) 1 fn
        ∗ owes (c : Thread nD τ) (O + tallyAt (recvCell 1 (pk 1 c)) () N) W
        ∗ dutyTok ER (sendCell 1 c) 0 0 ∗ reached ER (sendCell 1 c) 0
        ∗ dutyTok ER (recvCell 1 (pk 1 c)) 0 0 ∗ reached ER (recvCell 1 (pk 1 c)) 0)
      ⊢ iprop(((cred (tallyAt (sendCell 1 c) () N) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma sM (.remote (Dev.tc n : Thread nD τ) (slot 1) (.dma (sendS 1)) hsc) (.dma (recvS 1)) hsrc hdst hsem) k') Q) := by
  subst hn
  have hland : landed m 1 (pk 1 c) = (slot 1).view.write (Elt F) (base m (pk 1 c))
      ((sM : Memref sig .tc .vmem S256x256 .bf16).view.read (Elt F) (sendVal m c)) Finset.univ := by
    show (slot 1).view.write (Elt F) (base m (pk 1 c))
      ((sM : Memref sig .tc .vmem S256x256 .bf16).view.read (Elt F) (sendVal m (src 1 (pk 1 c)))) Finset.univ = _
    rw [show src 1 (pk 1 c) = c from pk_rev 1 c]
  unfold sPts
  rw [slotPts_one]
  exact Rounds.wp_send_pointsTo 𝒱₀ ER (sched m) (c : Thread nD τ) none (κ₁ := K (c, 2)) (κ₂ := K (pk 1 c, 5))
    (c' := ((pk 1 c : Dev nD) : Thread nD τ)) (src := (sM : Memref sig .tc .vmem S256x256 .bf16)) (dst := (slot 1 : Memref sig .tc .vmem S256x256 .bf16))
    (sS := .dma (sendS 1)) (sem := .dma (recvS 1)) (q := shr 1) (fs := sendVal m c)
    (r₁ := 0) (r₂ := 0) (d₁ := 0) (d₂ := 0) (fd := fn)
    (by rw [duties_send]; exact Finset.mem_singleton_self _) (by rw [duties_recv]; exact Finset.mem_singleton_self _)
    () () N rfl (amount_send m c 1 0) (amount_recv m (pk 1 c) 1 0) O rfl (W := W)
    (by rw [payload_send]; unfold sendPay sPts; exact BI.Entails.refl _)
    (by rw [payload_recv]; unfold recvPay
        rw [hland, ← slotPts_one, landed_congr1 (pk 1 c) fn (base m (pk 1 c))]
        try exact BI.Entails.refl _)

set_option maxHeartbeats 1000000 in
/-- The k = 2 copy: out of share 2 of the send buffer into slot 2 of the peer (pk 2 c), whose receive cell 2 it credits. -/
theorem wp_send2 (c n : Dev nD) (hn : n = pk 2 c)
    {hsc : (slot 2 : Memref sig (Dev.tc n : Thread nD τ).2.kind .vmem S256x256 .bf16).view.ref.isScScratch = false}
    {hsrc : (sM : Memref sig .tc .vmem S256x256 .bf16).view.WordExact} {hdst : (slot 2 : Memref sig .tc .vmem S256x256 .bf16).view.WordExact}
    {hsem : DmaTarget.Typed .vmem (.dma (recvS 2)) (.remote (Dev.tc n : Thread nD τ) (slot 2 : Memref sig .tc .vmem S256x256 .bf16) (.dma (sendS 2)) hsc)}
    {α : Type} {Q : α → sProp 𝕄} {k' : PUnit → Prog (TpuEff nD τ sig (Elt F) Λ₀ .tc) α}
    (fn : Buf (Elt F) (((pk 2 c : Dev nD) : Thread nD τ).loc cc0_scratch1)) (O : CellTallies nD τ sig Unit) (W : Waits sig Unit) :
    iprop(cellInv ER (sched m) (K (c, 3)) (sendCell 2 c) ∗ cellInv ER (sched m) (K (pk 2 c, 6)) (recvCell 2 (pk 2 c))
        ∗ sPts m (shr 2) c ∗ slotPts (pk 2 c) 2 fn
        ∗ owes (c : Thread nD τ) (O + tallyAt (recvCell 2 (pk 2 c)) () N) W
        ∗ dutyTok ER (sendCell 2 c) 0 0 ∗ reached ER (sendCell 2 c) 0
        ∗ dutyTok ER (recvCell 2 (pk 2 c)) 0 0 ∗ reached ER (recvCell 2 (pk 2 c)) 0)
      ⊢ iprop(((cred (tallyAt (sendCell 2 c) () N) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma sM (.remote (Dev.tc n : Thread nD τ) (slot 2) (.dma (sendS 2)) hsc) (.dma (recvS 2)) hsrc hdst hsem) k') Q) := by
  subst hn
  have hland : landed m 2 (pk 2 c) = (slot 2).view.write (Elt F) (base m (pk 2 c))
      ((sM : Memref sig .tc .vmem S256x256 .bf16).view.read (Elt F) (sendVal m c)) Finset.univ := by
    show (slot 2).view.write (Elt F) (base m (pk 2 c))
      ((sM : Memref sig .tc .vmem S256x256 .bf16).view.read (Elt F) (sendVal m (src 2 (pk 2 c)))) Finset.univ = _
    rw [show src 2 (pk 2 c) = c from pk_rev 2 c]
  unfold sPts
  rw [slotPts_two]
  exact Rounds.wp_send_pointsTo 𝒱₀ ER (sched m) (c : Thread nD τ) none (κ₁ := K (c, 3)) (κ₂ := K (pk 2 c, 6))
    (c' := ((pk 2 c : Dev nD) : Thread nD τ)) (src := (sM : Memref sig .tc .vmem S256x256 .bf16)) (dst := (slot 2 : Memref sig .tc .vmem S256x256 .bf16))
    (sS := .dma (sendS 2)) (sem := .dma (recvS 2)) (q := shr 2) (fs := sendVal m c)
    (r₁ := 0) (r₂ := 0) (d₁ := 0) (d₂ := 0) (fd := fn)
    (by rw [duties_send]; exact Finset.mem_singleton_self _) (by rw [duties_recv]; exact Finset.mem_singleton_self _)
    () () N rfl (amount_send m c 2 0) (amount_recv m (pk 2 c) 2 0) O rfl (W := W)
    (by rw [payload_send]; unfold sendPay sPts; exact BI.Entails.refl _)
    (by rw [payload_recv]; unfold recvPay
        rw [hland, ← slotPts_two, landed_congr2 (pk 2 c) fn (base m (pk 2 c))]
        try exact BI.Entails.refl _)

/-- The payload of a send or receive cell's one-duty round. -/
theorem pays_send (k : Fin 3) (c : Dev nD) :
    bigSep ((sched (F := F) m).duties (sendCell k c) 0) (fun d => (sched (F := F) m).payload (sendCell k c) 0 d) = sendPay m k c := by
  rw [duties_send, bigSep_singleton, payload_send]
theorem pays_recv (k : Fin 3) (c : Dev nD) :
    bigSep ((sched (F := F) m).duties (recvCell k c) 0) (fun d => (sched (F := F) m).payload (recvCell k c) 0 d) = recvPay m k c := by
  rw [duties_recv, bigSep_singleton, payload_recv]

attribute [local sl_rounds] duties_bar duties_send duties_recv amount_bar amount_send amount_recv expect_bar expect_send expect_recv
  payload_bar payload_send payload_recv
attribute [local sl_canon] dev1_eq dev2_eq dev3_eq dev4_eq dev5_eq dev6_eq

set_option maxHeartbeats 1600000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  unfold bodyPre ghost invs posns marks payToks creds scr
  iintro ⟨⟨⟨⟨⟨#HIbar, ⟨#HIs0, #HIs1, #HIs2⟩, ⟨#HIr0, #HIr1, #HIr2⟩, ⟨#HIb0, #HIb1, #HIb2⟩, ⟨#HIp0, #HIp1, #HIp2⟩⟩,
      ⟨HatB, ⟨HatS0, HatS1, HatS2⟩, ⟨HatR0, HatR1, HatR2⟩⟩,
      ⟨⟨#HrB0, #HrB1, #HrB2⟩, ⟨#HrP0, #HrP1, #HrP2⟩, ⟨#HrS0, #HrS1, #HrS2⟩⟩,
      ⟨⟨HtB0, HtB1, HtB2⟩, ⟨HtP0, HtP1, HtP2⟩, ⟨HtS0, HtS1, HtS2⟩⟩⟩,
      ⟨HcB, HcR0, HcR1, HcR2⟩, #Hlev, ⟨⟨%fs0, Hsb⟩, ⟨%fr0, Hrb⟩⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ B₁ B₂ R₀ R₁ R₂
  ihave Hsl := (slot_split c fr0).1 $$ Hrb
  icases Hsl with ⟨Hsl0, Hsl1, Hsl2⟩
  have hmw := mayWait_bar (F := F) c
  simp only [semSignalWord, semWaitWord, Prog.lift, Prog.bind_op, Prog.bind_ret, Prog.pure_eq_ret, wp_deviceId]
  simp only [dev1_eq c, dev2_eq c, dev3_eq c]
  -- the first signal, to (pk 0 c): duty 2 of its barrier cell, with slot 2 of this device's receive buffer
  iapply (Rounds.wp_signal 𝒱₀ ER (sched m) (c : Thread nD τ) none (dst := (pk 0 c : Thread nD τ)) (κ := K (pk 0 c, 0))
      (d := 2) (by rw [duties_bar]; exact Finset.mem_univ _) ((amount_bar m (pk 0 c) 2).trans (by decide)) () _ rfl)
    $$ [HO HtB0 Hsl2]
  · isplitr; · iexact HIb0
    isplitl [HO]; · iexact HO
    isplitl [HtB0]; · iexact HtB0
    isplitl [Hsl2]
    · rw [payload_bar_peer0]; iexists fr0; iexact Hsl2
    · iexact HrB0
  iintro HO
  -- the second, to (pk 1 c): duty 1, with slot 1
  iapply (Rounds.wp_signal 𝒱₀ ER (sched m) (c : Thread nD τ) none (dst := (pk 1 c : Thread nD τ)) (κ := K (pk 1 c, 0))
      (d := 1) (by rw [duties_bar]; exact Finset.mem_univ _) ((amount_bar m (pk 1 c) 1).trans (by decide)) () _ rfl)
    $$ [HO HtB1 Hsl1]
  · isplitr; · iexact HIb1
    isplitl [HO]; · iexact HO
    isplitl [HtB1]; · iexact HtB1
    isplitl [Hsl1]
    · rw [payload_bar_peer1]; iexists fr0; iexact Hsl1
    · iexact HrB1
  iintro HO
  -- the third, to (pk 2 c): duty 0, with slot 0
  iapply (Rounds.wp_signal 𝒱₀ ER (sched m) (c : Thread nD τ) none (dst := (pk 2 c : Thread nD τ)) (κ := K (pk 2 c, 0))
      (d := 0) (by rw [duties_bar]; exact Finset.mem_univ _) ((amount_bar m (pk 2 c) 0).trans (by decide)) () _ rfl)
    $$ [HO HtB2 Hsl0]
  · isplitr; · iexact HIb2
    isplitl [HO]; · iexact HO
    isplitl [HtB2]; · iexact HtB2
    isplitl [Hsl0]
    · rw [payload_bar_peer2]; iexists fr0; iexact Hsl0
    · iexact HrB2
  iintro HO
  -- the wait for the three peers' signals: each hands over the slot of ITS receive buffer this device's copy lands in
  set_option sl_exec.maxSteps 1 in sl_exec
  ihave Hp := (Entails.of_eq (bar_pays c)) $$ HatB_pay1
  unfold barPay
  icases Hp with ⟨⟨%fn0, Hd0⟩, ⟨%fn1, Hd1⟩, ⟨%fn2, Hd2⟩⟩
  -- the block, truncated, into the send buffer
  iapply (wp_load 𝒱₀ (c : Thread nD τ) none Set.univ (m := xM) (Finset.subset_univ _)) $$ Hx; iintro Hx
  rw [read_x]
  iapply (wp_load 𝒱₀ (c : Thread nD τ) none Set.univ (m := sM) (Finset.subset_univ _)) $$ Hsb; iintro Hsb
  iapply (wp_store 𝒱₀ (c : Thread nD τ) none Set.univ (m := sM) (r := r0) (Mk := Finset.univ) (Finset.subset_univ _)) $$ Hsb; iintro Hsb
  rw [write_s]
  -- the send buffer in three shares, one per copy
  ihave H3 := (s_thirds c (sendVal m c)).1 $$ [Hsb]
  · iexact Hsb
  icases H3 with ⟨Hq0, Hq1, Hq2⟩
  ihave Hq0 := (Entails.of_eq (sPts_eq m (shr 0) c).symm) $$ Hq0
  ihave Hq1 := (Entails.of_eq (sPts_eq m (shr 1) c).symm) $$ Hq1
  ihave Hq2 := (Entails.of_eq (sPts_eq m (shr 2) c).symm) $$ Hq2
  -- copy 0, to (pk 0 c)
  iapply (wp_send0 m K c _ (dev4_eq c) fn0 _ _) $$ [Hq0 Hd0 HO HtS0 HtP0]
  · isplitr; · iexact HIs0
    isplitr; · iexact HIp0
    isplitl [Hq0]; · iexact Hq0
    isplitl [Hd0]; · iexact Hd0
    isplitl [HO]; · iexact HO
    isplitl [HtS0]; · iexact HtS0
    isplitr; · iexact HrS0
    isplitl [HtP0]; · iexact HtP0
    iexact HrP0
  iintro ⟨HcS0, HO⟩
  -- copy 1, to (pk 1 c)
  iapply (wp_send1 m K c _ (dev5_eq c) fn1 _ _) $$ [Hq1 Hd1 HO HtS1 HtP1]
  · isplitr; · iexact HIs1
    isplitr; · iexact HIp1
    isplitl [Hq1]; · iexact Hq1
    isplitl [Hd1]; · iexact Hd1
    isplitl [HO]; · iexact HO
    isplitl [HtS1]; · iexact HtS1
    isplitr; · iexact HrS1
    isplitl [HtP1]; · iexact HtP1
    iexact HrP1
  iintro ⟨HcS1, HO⟩
  -- copy 2, to (pk 2 c)
  rw [show tallyAt (recvCell 2 (pk 2 c)) () N = 0 + tallyAt (recvCell 2 (pk 2 c)) () N from (zero_add _).symm]
  iapply (wp_send2 m K c _ (dev6_eq c) fn2 _ _) $$ [Hq2 Hd2 HO HtS2 HtP2]
  · isplitr; · iexact HIs2
    isplitr; · iexact HIp2
    isplitl [Hq2]; · iexact Hq2
    isplitl [Hd2]; · iexact Hd2
    isplitl [HO]; · iexact HO
    isplitl [HtS2]; · iexact HtS2
    isplitr; · iexact HrS2
    isplitl [HtP2]; · iexact HtP2
    iexact HrP2
  iintro ⟨HcS2, HO⟩
  -- the six waits: the three shares of the send buffer and the three landed slots come back
  set_option sl_exec.maxSteps 6 in sl_exec
  ihave Hq0 := (Entails.of_eq (pays_send m 0 c)) $$ HatS0_pay1
  ihave Hq1 := (Entails.of_eq (pays_send m 1 c)) $$ HatS1_pay1
  ihave Hq2 := (Entails.of_eq (pays_send m 2 c)) $$ HatS2_pay1
  ihave Hl0 := (Entails.of_eq (pays_recv m 0 c)) $$ HatR0_pay1
  ihave Hl1 := (Entails.of_eq (pays_recv m 1 c)) $$ HatR1_pay1
  ihave Hl2 := (Entails.of_eq (pays_recv m 2 c)) $$ HatR2_pay1
  unfold sendPay recvPay
  -- the six own cells close: their counters at zero are the device's again
  imod (Rounds.cell_close ER (sched m) (Set.mem_univ (K (c, 1))) (fun h => h) (R := 0 + 1) (duties_later m (sendCell 0 c))) $$ [HatS0] with HzS0
  · isplitr; · iexact HIs0
    iexact HatS0
  imod (Rounds.cell_close ER (sched m) (Set.mem_univ (K (c, 2))) (fun h => h) (R := 0 + 1) (duties_later m (sendCell 1 c))) $$ [HatS1] with HzS1
  · isplitr; · iexact HIs1
    iexact HatS1
  imod (Rounds.cell_close ER (sched m) (Set.mem_univ (K (c, 3))) (fun h => h) (R := 0 + 1) (duties_later m (sendCell 2 c))) $$ [HatS2] with HzS2
  · isplitr; · iexact HIs2
    iexact HatS2
  imod (Rounds.cell_close ER (sched m) (Set.mem_univ (K (c, 4))) (fun h => h) (R := 0 + 1) (duties_later m (recvCell 0 c))) $$ [HatR0] with HzR0
  · isplitr; · iexact HIr0
    iexact HatR0
  imod (Rounds.cell_close ER (sched m) (Set.mem_univ (K (c, 5))) (fun h => h) (R := 0 + 1) (duties_later m (recvCell 1 c))) $$ [HatR1] with HzR1
  · isplitr; · iexact HIr1
    iexact HatR1
  imod (Rounds.cell_close ER (sched m) (Set.mem_univ (K (c, 6))) (fun h => h) (R := 0 + 1) (duties_later m (recvCell 2 c))) $$ [HatR2] with HzR2
  · isplitr; · iexact HIr2
    iexact HatR2
  -- the send buffer whole again
  ihave Hq0 := (Entails.of_eq (sPts_eq m (shr 0) c)) $$ Hq0
  ihave Hq1 := (Entails.of_eq (sPts_eq m (shr 1) c)) $$ Hq1
  ihave Hq2 := (Entails.of_eq (sPts_eq m (shr 2) c)) $$ Hq2
  ihave Hsb := (s_thirds c (sendVal m c)).2 $$ [Hq0 Hq1 Hq2]
  · isplitl [Hq0]; · iexact Hq0
    isplitl [Hq1]; · iexact Hq1
    iexact Hq2
  -- the own block, the three landed slots (each read on its own region), and the sum stored
  iapply (wp_load 𝒱₀ (c : Thread nD τ) none Set.univ (m := xM) (Finset.subset_univ _)) $$ Hx; iintro Hx
  rw [read_x]
  unfold slotPts
  iapply (wp_load 𝒱₀ (c : Thread nD τ) none Set.univ (m := rM) (load_sub 0)) $$ Hl0; iintro Hl0
  iapply (wp_load 𝒱₀ (c : Thread nD τ) none Set.univ (m := rM) (load_sub 1)) $$ Hl1; iintro Hl1
  iapply (wp_load 𝒱₀ (c : Thread nD τ) none Set.univ (m := rM) (load_sub 2)) $$ Hl2; iintro Hl2
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out, wp_ret]; imodintro
  iapply Hk
  unfold bodyPost Φ₁ scr Dat.owesAt Pipeline.owesWithin
  rw [show (dats m 0 c).owed t₀.succ = 0 from rfl]
  isplitl [Hsb Hl0 Hl1 Hl2 HzS0 HzS1 HzS2 HzR0 HzR1 HzR2]
  · isplitl [Hsb Hl0 Hl1 Hl2]
    · isplitl [Hsb]; · iexists _; iexact Hsb
      iapply (slot_join c (landed m 0 c) (landed m 1 c) (landed m 2 c))
      unfold slotPts
      isplitl [Hl0]; · iexact Hl0
      isplitl [Hl1]; · iexact Hl1
      iexact Hl2
    isplitl [HzS0 HzS1 HzS2]
    · isplitl [HzS0]; · iexact HzS0
      isplitl [HzS1]; · iexact HzS1
      iexact HzS2
    · isplitl [HzR0]; · iexact HzR0
      isplitl [HzR1]; · iexact HzR1
      iexact HzR2
  isplitl [HO]
  · iexists (insert (SemLoc.dma (recvS 2), ()) (insert (SemLoc.dma (sendS 2), ()) (insert (SemLoc.dma (recvS 1), ()) (insert (SemLoc.dma (sendS 1), ())
      (insert (SemLoc.dma (recvS 0), ()) (insert (SemLoc.dma (sendS 0), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

end Body

set_option maxRecDepth 4000 in
/-- What the pipeline hands the body at its one point, before the names of the invariants are chosen. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device c. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  unfold bodyPre' Φ₀ start
  iintro ⟨⟨⟨⟨%K, Hg⟩, Hcr, Hlev⟩, Hscr⟩, Ho, Hx, Hout⟩
  iapply (sound_body m K c fun _ => bodyPost m c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-- info: 'Cert.KernelIdeal.AR.body_obligation' depends on axioms: [propext, Classical.choice, Quot.sound] -/
#guard_msgs in #print axioms body_obligation

end Cert.KernelIdeal.AR

end
-- ==== Proof.Arrays.lean ====
import proofs.«900735_g7700000000000736_dist_ar_v7x_xyz2x4x4_z_m256_n256_bf16_1_alg».proof.Proof.Proto
import proofs.«900735_g7700000000000736_dist_ar_v7x_xyz2x4x4_z_m256_n256_bf16_1_alg».proof.Proof.Slots
import Idealize.ShloMosaic.Lib.ValueIdx
import Idealize.ShloMosaic.Lib.ValueLayout

/-! The protocol's named contents read back, for any float instance: the staged block is the device's block of x; each
loaded slot of the receive buffer reads the block its sender sent; and the two arrays after the run are the argument
unchanged and the kernel's result. -/

noncomputable section

namespace Cert.KernelIdeal.ARVal

open Cert.KernelIdeal Cert.KernelIdeal.Gen Cert.KernelIdeal.AR
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The window of the argument is the whole array at block index 0: the block read through it is the array itself. -/
theorem xstg_eq (c : Dev nD) : xstg m c = m ((c : Thread nD τ).loc main_arg0) := by
  unfold xstg
  exact Memref.read_access_unit_zero (Elt F) main_arg0 (funext fun a => Nat.zero_mul _) _ _

/-- The load of the rows [k] of the receive buffer after the landing, cast to 256 x 256, is what the device (src k c) sent. -/
theorem ldv_cast (k : Fin 3) (c : Dev nD) :
    shapeCast S256x256 (ldv m k c) shapeCasts_S1x256x256_S256x256 = sendVal m (src k c) := by
  match k with
  | 0 => exact read_landed0 (base m c) (sendVal m (src 0 c))
  | 1 => exact read_landed1 (base m c) (sendVal m (src 1 c))
  | 2 => exact read_landed2 (base m c) (sendVal m (src 2 c))

/-- The same at an index: the loaded rows at (0, i, j) are the sent block at (i, j). -/
theorem ldv_at (k : Fin 3) (c : Dev nD) (i j : Fin 256) :
    ldv m k c (ix3 (0 : Fin 1) i j) = sendVal m (src k c) (ix2 i j) := by
  rw [← ldv_cast m k c]
  exact (shapeCast_1ab_ab_apply (ldv m k c) shapeCasts_S1x256x256_S256x256 i j).symm

/-- The argument's array is never written back: after the run it is as launched. -/
theorem arr_in (c : Dev nD) : (dats m 0 c).arrAt 0 cfg0.N = m ((c : Thread nD τ).loc main_arg0) :=
  ((dats m 0 c).arrAt_in 0 rfl _).trans rfl

/-- The result's array after the run is what the one point's write-back wrote: the kernel's result. -/
theorem arr_out (c : Dev nD) : (dats m 0 c).arrAt 1 cfg0.N = outAt m c := by
  show (dats m 0 c).arrAt 1 ((t0_0 : Fin cfg0.N).val + 1) = outAt m c
  rw [Dat.arrAt_succ, flush0_1, if_pos rfl]
  exact Memref.write_access_unit_zero_univ (Elt F) main_v1 (funext fun a => Nat.zero_mul _) _ _ _

/-- info: 'Cert.KernelIdeal.ARVal.arr_out' depends on axioms: [propext, Classical.choice, Quot.sound] -/
#guard_msgs in #print axioms arr_out
/-- info: 'Cert.KernelIdeal.ARVal.arr_in' depends on axioms: [propext, Classical.choice, Quot.sound] -/
#guard_msgs in #print axioms arr_in

end Cert.KernelIdeal.ARVal

end
-- ==== Proof.RefSide.lean ====
import proofs.«900735_g7700000000000736_dist_ar_v7x_xyz2x4x4_z_m256_n256_bf16_1_alg».proof.Proof.Gen.ReferenceIdeal.Run
import proofs.«900735_g7700000000000736_dist_ar_v7x_xyz2x4x4_z_m256_n256_bf16_1_alg».proof.Proof.Gen.ReferenceIdeal.Read
import proofs.«900735_g7700000000000736_dist_ar_v7x_xyz2x4x4_z_m256_n256_bf16_1_alg».proof.Defs

/-! The reference's side of the value. The reference reshapes its argument x : [1024, 256] into four blocks of 256 rows
and adds them up starting from zero: its result at (i, j) is x(i, j) + x(256 + i, j) + x(512 + i, j) + x(768 + i, j). -/

noncomputable section

namespace Cert.ReferenceIdeal.ARRef

open Cert.ReferenceIdeal Cert.ReferenceIdeal.Gen Idealize.ShloMosaic Idealize.ShloMosaic.TcCoe Idealize.SL.Sem

/-- The index of the whole array at which row (i 0) of block k lies: row 256 k + (i 0), column (i 1). -/
abbrev rowIdx (k : Fin 4) (i : S256x256.Idx) : S1024x256.Idx := fun a => match a with
  | ⟨0, _⟩ => ⟨k.val * 256 + (i 0).val, by have h0 : (i 0).val < 256 := (i 0).isLt; have hk : k.val < 4 := k.isLt; show k.val * 256 + (i 0).val < 1024; omega⟩
  | ⟨1, _⟩ => ⟨(i 1).val, (i 1).isLt⟩

/-- The sum of the four row blocks of the whole array, index by index, associated to the left:
    ((X(i, j) + X(256 + i, j)) + X(512 + i, j)) + X(768 + i, j). -/
def Gsum (X : (⟨S1024x256, .f32⟩ : BufTy).Contents (Elt Ideal)) : (⟨S256x256, .f32⟩ : BufTy).Contents (Elt Ideal) :=
  fun i => show EReal from
    (((show EReal from X (rowIdx 0 i)) + (show EReal from X (rowIdx 1 i))) + (show EReal from X (rowIdx 2 i))) + (show EReal from X (rowIdx 3 i))

theorem Gsum_apply (X : (⟨S1024x256, .f32⟩ : BufTy).Contents (Elt Ideal)) (i : S256x256.Idx) :
    (show EReal from Gsum X i) =
      (((show EReal from X (rowIdx 0 i)) + (show EReal from X (rowIdx 1 i))) + (show EReal from X (rowIdx 2 i))) + (show EReal from X (rowIdx 3 i)) := rfl

/-- Block k of the reshaped array, read at (i 0, i 1), is the whole array at row 256 k + (i 0). -/
theorem idx_comp (k : Fin 4) (i : S256x256.Idx) : Read.idx_main_v0 (Read.idx_main_v1 i k) = rowIdx k i := by
  funext a
  refine Fin.ext ?_
  have h0 : (i 0).val < 256 := (i 0).isLt
  have h1 : (i 1).val < 256 := (i 1).isLt
  have hk : k.val < 4 := k.isLt
  match a with
  | ⟨0, _⟩ => show ((k.val * 256 + (i 0).val) * 256 + (i 1).val) / 256 = k.val * 256 + (i 0).val; omega
  | ⟨1, _⟩ => show ((k.val * 256 + (i 0).val) * 256 + (i 1).val) % 256 = (i 1).val; omega

variable [Facts]

/-- The reference's composed term is the sum of the four row blocks. -/
theorem ref_val (X : (⟨S1024x256, .f32⟩ : BufTy).Contents (Elt Ideal)) :
    Host.reduceAdd (shapeCast _ X shapeCasts_S1024x256_S4x256x256) (constant (F := Ideal) S_ .f32 0x00000000#32) reducesTo_S4x256x256_S256x256_d0 h_S_ = Gsum X := by
  rw [Read.val_main_v1_eq]
  funext i
  rw [Read.val_main_v1_apply, Read.val_main_cst_apply, Fin.sum_univ_four]
  simp only [Read.val_main_v0_apply, idx_comp]
  show Ideal.ofBits .f32 0x00000000#32 + _ = _
  rw [Ideal.ofBits_zero_f32, zero_add]
  rfl

/-- The reference runs, its result ends as the sum of the four row blocks of its argument, and the argument ends unchanged. -/
theorem ref_run (m' : (ℓ : Loc nD τ sig) → Buf (Elt Ideal) ℓ) (g' : Dev nD → PrngReg) :
    θ_run (defs (F := Ideal)) (onTc (τ := τ) (main (F := Ideal))) ⟨m', fun _ => 0, g'⟩ (fun r =>
      r.2.mem (((0 : Dev nD).tc : Thread nD τ).loc main_v1) = Gsum (m' (((0 : Dev nD).tc : Thread nD τ).loc main_arg0))
      ∧ r.2.mem (((0 : Dev nD).tc : Thread nD τ).loc main_arg0) = m' (((0 : Dev nD).tc : Thread nD τ).loc main_arg0)) :=
  (θ_run defs _ _).mono (fun _ h => ⟨(h 0).1.trans (ref_val _), (h 0).2⟩) (Value.run (F := Ideal) m' g')

/-- The reference's frame: its run with the result dropped. -/
theorem frame_ri [Cert.Pre_finite_inputs_ReferenceIdeal.Facts] : Cert.frame_ReferenceIdeal :=
  fun m ρ _ => (θ_run Cert.ReferenceIdeal.defs _ _).mono (fun _ h c => (h c).2) (Cert.ReferenceIdeal.Value.run (F := Ideal) m ρ)

end Cert.ReferenceIdeal.ARRef

end
-- ==== Proof.KernelVal.lean ====
import proofs.«900735_g7700000000000736_dist_ar_v7x_xyz2x4x4_z_m256_n256_bf16_1_alg».proof.Proof.Peers
import proofs.«900735_g7700000000000736_dist_ar_v7x_xyz2x4x4_z_m256_n256_bf16_1_alg».proof.Proof.Gen.KernelIdeal.Skeleton
import proofs.«900735_g7700000000000736_dist_ar_v7x_xyz2x4x4_z_m256_n256_bf16_1_alg».proof.Proof.RefSide
import Idealize.ShloMosaic.Lib.Layout
import Idealize.ShloMosaic.Lib.ValueIdx
import Idealize.ShloMosaic.Lib.ValueLayout
import Idealize.ShloMosaic.Lib.Pipeline.Value

/-! The value of the kernel. Each device adds to its own block the three blocks its z-peers sent it. A device with z
coordinate z holds row block z of the whole array, and its three peers hold the blocks z + 1, z + 2, z + 3 modulo 4: the
four blocks are the four row blocks of the whole array in a rotated order, and addition of extended reals is commutative
and associative, so the device's result is the sum of the four row blocks, which is the reference's result. -/

noncomputable section

namespace Cert.KernelIdeal.ARVal

open Cert.KernelIdeal Cert.KernelIdeal.Gen Cert.KernelIdeal.AR Idealize.ShloMosaic Idealize.ShloMosaic.ValueIdx Idealize.SL.Sem
open Cert.ReferenceIdeal.ARRef (Gsum rowIdx)

/-! ## The two payloads at an index -/

/-- What a device sends is its own block: the two same-shape casts and the change of format are the identity. -/
theorem pay2_eq (x : Vec Ideal S256x256 .f32) : k0_pay2 (F := Ideal) x = x := by
  unfold k0_pay2
  simp only [shapeCast_self]
  rfl

theorem pay2_apply (x : Vec Ideal S256x256 .f32) (idx : S256x256.Idx) : k0_pay2 (F := Ideal) x idx = x idx :=
  congrFun (pay2_eq x) idx

/-- The result at (i, j): the own block plus the three landed slots, each read at (0, i, j), added in the printed order. -/
theorem pay1_apply (x : Vec Ideal S256x256 .f32) (r0 r1 r2 : Vec Ideal S1x256x256 .bf16) (i j : Fin 256) :
    k0_pay1 (F := Ideal) x r0 r1 r2 (ix2 i j) =
      (((show EReal from x (ix2 i j)) + (show EReal from r0 (ix3 (0 : Fin 1) i j))) + (show EReal from r1 (ix3 (0 : Fin 1) i j)))
        + (show EReal from r2 (ix3 (0 : Fin 1) i j)) := by
  unfold k0_pay1
  simp only [addf_apply, extf_apply, shapeCast_self, shapeCast_1ab_ab_apply]

/-! ## The z coordinate and the blocks -/

/-- A device's z coordinate. -/
def zc (c : Dev nD) : Fin 4 := ⟨c.val % 4, Nat.mod_lt _ (by decide)⟩

theorem zc_pk0 : ∀ c : Dev nD, zc (pk 0 c) = zc c + 1 := by decide
theorem zc_pk1 : ∀ c : Dev nD, zc (pk 1 c) = zc c + 2 := by decide
theorem zc_pk2 : ∀ c : Dev nD, zc (pk 2 c) = zc c + 3 := by decide

/-- On the mesh [2, 4, 4] a dimension cut along the last axis gives device c the block its z coordinate names. -/
theorem meshLin_z : ∀ c : Dev nD, Layout.meshLin [2, 4, 4] c.val [2] = c.val % 4 := by decide

/-- The four values at the z coordinates z, z + 3, z + 2, z + 1 add up to the four values in order. -/
theorem sum4_rot (f : Fin 4 → EReal) (z : Fin 4) :
    ((f z + f (z + 3)) + f (z + 2)) + f (z + 1) = ((f 0 + f 1) + f 2) + f 3 := by
  match z with
  | ⟨0, _⟩ => show ((f 0 + f 3) + f 2) + f 1 = ((f 0 + f 1) + f 2) + f 3; ac_rfl
  | ⟨1, _⟩ => show ((f 1 + f 0) + f 3) + f 2 = ((f 0 + f 1) + f 2) + f 3; ac_rfl
  | ⟨2, _⟩ => show ((f 2 + f 1) + f 0) + f 3 = ((f 0 + f 1) + f 2) + f 3; ac_rfl
  | ⟨3, _⟩ => show ((f 3 + f 2) + f 1) + f 0 = ((f 0 + f 1) + f 2) + f 3; ac_rfl

section Bridge

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- A device's block at an index is the whole array at the row block its z coordinate names. -/
theorem block_at
    (hagree : ∀ c : Dev Cert.KernelIdeal.nD,
      m ((c.tc : Thread Cert.KernelIdeal.nD Cert.KernelIdeal.τ).loc Cert.KernelIdeal.main_arg0) = Layout.blockN ⟨2, ![256, 256]⟩ ⟨2, ![1024, 256]⟩ (Layout.meshBlock [2, 4, 4] ![[2], []] c) (m' (((0 : Dev Cert.ReferenceIdeal.nD).tc : Thread Cert.ReferenceIdeal.nD Cert.ReferenceIdeal.τ).loc Cert.ReferenceIdeal.main_arg0)))
    (c : Dev Cert.KernelIdeal.nD) (idx : S256x256.Idx) :
    m ((c.tc : Thread Cert.KernelIdeal.nD Cert.KernelIdeal.τ).loc Cert.KernelIdeal.main_arg0) idx
      = m' (((0 : Dev Cert.ReferenceIdeal.nD).tc : Thread Cert.ReferenceIdeal.nD Cert.ReferenceIdeal.τ).loc Cert.ReferenceIdeal.main_arg0) (rowIdx (zc c) idx) := by
  rw [hagree c, Layout.blockN_apply]
  refine congrArg _ (funext fun a => Fin.ext ?_)
  match a with
  | ⟨0, _⟩ =>
    show Layout.meshLin [2, 4, 4] c.val [2] * 256 + (idx 0).val = c.val % 4 * 256 + (idx 0).val
    rw [meshLin_z c]
  | ⟨1, _⟩ =>
    show 0 * 256 + (idx 1).val = (idx 1).val
    rw [Nat.zero_mul, Nat.zero_add]

/-- THE BRIDGE. A device's own block plus the blocks of its three z-peers, in the order the kernel adds them, is the sum
    of the four row blocks of the whole array. -/
theorem block_sum
    (hagree : ∀ c : Dev Cert.KernelIdeal.nD,
      m ((c.tc : Thread Cert.KernelIdeal.nD Cert.KernelIdeal.τ).loc Cert.KernelIdeal.main_arg0) = Layout.blockN ⟨2, ![256, 256]⟩ ⟨2, ![1024, 256]⟩ (Layout.meshBlock [2, 4, 4] ![[2], []] c) (m' (((0 : Dev Cert.ReferenceIdeal.nD).tc : Thread Cert.ReferenceIdeal.nD Cert.ReferenceIdeal.τ).loc Cert.ReferenceIdeal.main_arg0)))
    (c : Dev Cert.KernelIdeal.nD) (idx : S256x256.Idx) :
    (((show EReal from m ((c.tc : Thread Cert.KernelIdeal.nD Cert.KernelIdeal.τ).loc Cert.KernelIdeal.main_arg0) idx)
        + (show EReal from m (((pk 2 c).tc : Thread Cert.KernelIdeal.nD Cert.KernelIdeal.τ).loc Cert.KernelIdeal.main_arg0) idx))
        + (show EReal from m (((pk 1 c).tc : Thread Cert.KernelIdeal.nD Cert.KernelIdeal.τ).loc Cert.KernelIdeal.main_arg0) idx))
        + (show EReal from m (((pk 0 c).tc : Thread Cert.KernelIdeal.nD Cert.KernelIdeal.τ).loc Cert.KernelIdeal.main_arg0) idx)
      = (show EReal from Gsum (m' (((0 : Dev Cert.ReferenceIdeal.nD).tc : Thread Cert.ReferenceIdeal.nD Cert.ReferenceIdeal.τ).loc Cert.ReferenceIdeal.main_arg0)) idx) := by
  rw [block_at m m' hagree c idx, block_at m m' hagree (pk 2 c) idx, block_at m m' hagree (pk 1 c) idx, block_at m m' hagree (pk 0 c) idx,
    zc_pk0, zc_pk1, zc_pk2]
  exact sum4_rot (fun k => m' (((0 : Dev Cert.ReferenceIdeal.nD).tc : Thread Cert.ReferenceIdeal.nD Cert.ReferenceIdeal.τ).loc Cert.ReferenceIdeal.main_arg0) (rowIdx k idx)) (zc c)

/-- The kernel's result on device c, once slot k of its receive buffer holds what the device pk k.rev c sent (slot 0 from
    pk 2 c, slot 1 from pk 1 c, slot 2 from pk 0 c), is the reference's result. -/
theorem kernel_value
    (hagree : ∀ c : Dev Cert.KernelIdeal.nD,
      m ((c.tc : Thread Cert.KernelIdeal.nD Cert.KernelIdeal.τ).loc Cert.KernelIdeal.main_arg0) = Layout.blockN ⟨2, ![256, 256]⟩ ⟨2, ![1024, 256]⟩ (Layout.meshBlock [2, 4, 4] ![[2], []] c) (m' (((0 : Dev Cert.ReferenceIdeal.nD).tc : Thread Cert.ReferenceIdeal.nD Cert.ReferenceIdeal.τ).loc Cert.ReferenceIdeal.main_arg0)))
    (c : Dev Cert.KernelIdeal.nD) (r0 r1 r2 : Vec Ideal S1x256x256 .bf16)
    (h0 : ∀ i j : Fin 256, r0 (ix3 (0 : Fin 1) i j) = k0_pay2 (F := Ideal) (m (((pk 2 c).tc : Thread Cert.KernelIdeal.nD Cert.KernelIdeal.τ).loc Cert.KernelIdeal.main_arg0)) (ix2 i j))
    (h1 : ∀ i j : Fin 256, r1 (ix3 (0 : Fin 1) i j) = k0_pay2 (F := Ideal) (m (((pk 1 c).tc : Thread Cert.KernelIdeal.nD Cert.KernelIdeal.τ).loc Cert.KernelIdeal.main_arg0)) (ix2 i j))
    (h2 : ∀ i j : Fin 256, r2 (ix3 (0 : Fin 1) i j) = k0_pay2 (F := Ideal) (m (((pk 0 c).tc : Thread Cert.KernelIdeal.nD Cert.KernelIdeal.τ).loc Cert.KernelIdeal.main_arg0)) (ix2 i j)) :
    k0_pay1 (F := Ideal) (m ((c.tc : Thread Cert.KernelIdeal.nD Cert.KernelIdeal.τ).loc Cert.KernelIdeal.main_arg0)) r0 r1 r2
      = Gsum (m' (((0 : Dev Cert.ReferenceIdeal.nD).tc : Thread Cert.ReferenceIdeal.nD Cert.ReferenceIdeal.τ).loc Cert.ReferenceIdeal.main_arg0)) := by
  funext idx
  obtain ⟨i, j, rfl⟩ : ∃ (i : Fin 256) (j : Fin 256), idx = ix2 i j := ⟨idx 0, idx 1, eq_ix2 idx⟩
  rw [pay1_apply, h0, h1, h2, pay2_apply, pay2_apply, pay2_apply]
  exact block_sum m m' hagree c (ix2 i j)

end Bridge

/-- info: 'Cert.KernelIdeal.ARVal.block_sum' depends on axioms: [propext, Classical.choice, Quot.sound] -/
#guard_msgs in #print axioms block_sum
/-- info: 'Cert.KernelIdeal.ARVal.kernel_value' depends on axioms: [propext, Classical.choice, Quot.sound] -/
#guard_msgs in #print axioms kernel_value
/-- info: 'Cert.ReferenceIdeal.ARRef.ref_run' depends on axioms: [propext, Classical.choice, Quot.sound] -/
#guard_msgs in #print axioms Cert.ReferenceIdeal.ARRef.ref_run
/-- info: 'Cert.ReferenceIdeal.ARRef.frame_ri' depends on axioms: [propext, Classical.choice, Quot.sound] -/
#guard_msgs in #print axioms Cert.ReferenceIdeal.ARRef.frame_ri

end Cert.KernelIdeal.ARVal

end
-- ==== Proof.Bridge.lean ====
import proofs.«900735_g7700000000000736_dist_ar_v7x_xyz2x4x4_z_m256_n256_bf16_1_alg».proof.Proof.Arrays
import proofs.«900735_g7700000000000736_dist_ar_v7x_xyz2x4x4_z_m256_n256_bf16_1_alg».proof.Proof.KernelVal

/-! The value of the kernel over the extended reals: what a device sends is its block, so the result on every device is
the sum of the four row blocks of the whole array. -/

noncomputable section

namespace Cert.KernelIdeal.ARVal

open Cert.KernelIdeal Cert.KernelIdeal.Gen Cert.KernelIdeal.AR
open Idealize.ShloMosaic Idealize.ShloMosaic.TcCoe Idealize.ShloMosaic.ValueIdx Idealize.SL.Sem
open Cert.ReferenceIdeal.ARRef (Gsum)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- What a device sends is, over the extended reals, its block of x. -/
theorem sendVal_eq (d : Dev nD) : sendVal m d = k0_pay2 (F := Ideal) (m ((d.tc : Thread nD τ).loc main_arg0)) := by
  unfold sendVal; rw [xstg_eq]

/-- THE VALUE of the kernel on device c: the sum of the four row blocks of the whole array. -/
theorem outAt_eq
    (hagree : ∀ c : Dev Cert.KernelIdeal.nD,
      m ((c.tc : Thread Cert.KernelIdeal.nD Cert.KernelIdeal.τ).loc Cert.KernelIdeal.main_arg0) = Layout.blockN ⟨2, ![256, 256]⟩ ⟨2, ![1024, 256]⟩ (Layout.meshBlock [2, 4, 4] ![[2], []] c) (m' (((0 : Dev Cert.ReferenceIdeal.nD).tc : Thread Cert.ReferenceIdeal.nD Cert.ReferenceIdeal.τ).loc Cert.ReferenceIdeal.main_arg0)))
    (c : Dev Cert.KernelIdeal.nD) :
    outAt m c = Gsum (m' (((0 : Dev Cert.ReferenceIdeal.nD).tc : Thread Cert.ReferenceIdeal.nD Cert.ReferenceIdeal.τ).loc Cert.ReferenceIdeal.main_arg0)) := by
  unfold outAt
  rw [xstg_eq]
  exact kernel_value m m' hagree c (ldv m 0 c) (ldv m 1 c) (ldv m 2 c)
    (fun i j => (ldv_at m 0 c i j).trans (congrFun (sendVal_eq m (src 0 c)) _))
    (fun i j => (ldv_at m 1 c i j).trans (congrFun (sendVal_eq m (src 1 c)) _))
    (fun i j => (ldv_at m 2 c i j).trans (congrFun (sendVal_eq m (src 2 c)) _))

/-- info: 'Cert.KernelIdeal.ARVal.outAt_eq' depends on axioms: [propext, Classical.choice, Quot.sound] -/
#guard_msgs in #print axioms outAt_eq

end Cert.KernelIdeal.ARVal

end
-- ==== Proof.Claims.lean ====
import proofs.«900735_g7700000000000736_dist_ar_v7x_xyz2x4x4_z_m256_n256_bf16_1_alg».proof.Defs
import proofs.«900735_g7700000000000736_dist_ar_v7x_xyz2x4x4_z_m256_n256_bf16_1_alg».proof.Proof.Run
import proofs.«900735_g7700000000000736_dist_ar_v7x_xyz2x4x4_z_m256_n256_bf16_1_alg».proof.Proof.Body
import proofs.«900735_g7700000000000736_dist_ar_v7x_xyz2x4x4_z_m256_n256_bf16_1_alg».proof.Proof.Bits.Run
import proofs.«900735_g7700000000000736_dist_ar_v7x_xyz2x4x4_z_m256_n256_bf16_1_alg».proof.Proof.Bits.Body
import proofs.«900735_g7700000000000736_dist_ar_v7x_xyz2x4x4_z_m256_n256_bf16_1_alg».proof.Proof.Bridge
import proofs.«900735_g7700000000000736_dist_ar_v7x_xyz2x4x4_z_m256_n256_bf16_1_alg».proof.Proof.Bits.Arrays
import proofs.«900735_g7700000000000736_dist_ar_v7x_xyz2x4x4_z_m256_n256_bf16_1_alg».proof.Proof.RefSide
import proofs.«900735_g7700000000000736_dist_ar_v7x_xyz2x4x4_z_m256_n256_bf16_1_alg».proof.Proof.Gen.Pre_finite_inputs_Kernel
import proofs.«900735_g7700000000000736_dist_ar_v7x_xyz2x4x4_z_m256_n256_bf16_1_alg».proof.Proof.Gen.Pre_finite_inputs_ReferenceIdeal

/-! The five conjuncts. Each program's run ends with every windowed array at the contents the proof data name for it after
the one point: the argument's array as launched, the result's array at the kernel's result. The two frames of the kernel
read the argument's array off that run, at the word level and over the extended reals; the algebraic conjunct reads both
arrays off the run over the extended reals, where the kernel's result on every device is the sum of the four row blocks
of the whole array, which is what the reference's run leaves in its result. -/

noncomputable section

namespace Cert.Claims

open Idealize.ShloMosaic Idealize.ShloMosaic.TcCoe Idealize.SL.Sem

/-- The word-level kernel runs and leaves its argument arrays unchanged. -/
theorem frame_p : Cert.frame_Kernel := fun m g _ =>
  (θ_run _ _ _).mono (fun _ h c => (h c 0).trans (Cert.Kernel.ARVal.arr_in m c))
    (Cert.Kernel.AR.run_main m g (fun c => Cert.Kernel.AR.body_obligation m c))

/-- The kernel over the extended reals runs and leaves its argument arrays unchanged. -/
theorem frame_pi : Cert.frame_KernelIdeal := fun m g _ =>
  (θ_run _ _ _).mono (fun _ h c => (h c 0).trans (Cert.KernelIdeal.ARVal.arr_in m c))
    (Cert.KernelIdeal.AR.run_main m g (fun c => Cert.KernelIdeal.AR.body_obligation m c))

/-- Over the extended reals the kernel's result on every device is the reference's result: the sum of the four row blocks. -/
theorem algebraic : Cert.algebraic_KernelIdeal_ReferenceIdeal := fun m g m' g' _ hagree =>
  ⟨Cert.ReferenceIdeal.ARRef.Gsum (m' (((0 : Dev Cert.ReferenceIdeal.nD).tc : Thread Cert.ReferenceIdeal.nD Cert.ReferenceIdeal.τ).loc Cert.ReferenceIdeal.main_arg0)),
    (θ_run _ _ _).mono (fun _ h c =>
      ⟨(h c 1).trans ((Cert.KernelIdeal.ARVal.arr_out m c).trans (Cert.KernelIdeal.ARVal.outAt_eq m m' hagree c)),
        (h c 0).trans (Cert.KernelIdeal.ARVal.arr_in m c)⟩)
      (Cert.KernelIdeal.AR.run_main m g (fun c => Cert.KernelIdeal.AR.body_obligation m c)),
    Cert.ReferenceIdeal.ARRef.ref_run m' g'⟩

/-- The certificate's claim. -/
theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, frame_pi, Cert.ReferenceIdeal.ARRef.frame_ri, trivial, algebraic⟩

/-- info: 'Cert.Claims.claim' depends on axioms: [propext, Classical.choice, Quot.sound] -/
#guard_msgs in #print axioms claim

end Cert.Claims

end
-- ==== Proof.lean ====
/- The proof of the certificate's claim: the three frames, the idealization's preservation and the algebraic conjunct are
   assembled in Proof/Claims.lean from the protocol proof of the exchange (one body obligation at a symbolic device and the
   launch theorem, at both float instances) and from the value: every device ends with the sum of the four row blocks. -/
import proofs.«900735_g7700000000000736_dist_ar_v7x_xyz2x4x4_z_m256_n256_bf16_1_alg».proof.Defs
import proofs.«900735_g7700000000000736_dist_ar_v7x_xyz2x4x4_z_m256_n256_bf16_1_alg».proof.Proof.Gen.Kernel
import proofs.«900735_g7700000000000736_dist_ar_v7x_xyz2x4x4_z_m256_n256_bf16_1_alg».proof.Proof.Gen.Kernel.Skeleton
import proofs.«900735_g7700000000000736_dist_ar_v7x_xyz2x4x4_z_m256_n256_bf16_1_alg».proof.Proof.Gen.Kernel.Launch
import proofs.«900735_g7700000000000736_dist_ar_v7x_xyz2x4x4_z_m256_n256_bf16_1_alg».proof.Proof.Gen.Kernel.Points
import proofs.«900735_g7700000000000736_dist_ar_v7x_xyz2x4x4_z_m256_n256_bf16_1_alg».proof.Proof.Gen.Kernel.Frame
import proofs.«900735_g7700000000000736_dist_ar_v7x_xyz2x4x4_z_m256_n256_bf16_1_alg».proof.Proof.Gen.KernelIdeal
import proofs.«900735_g7700000000000736_dist_ar_v7x_xyz2x4x4_z_m256_n256_bf16_1_alg».proof.Proof.Gen.KernelIdeal.Skeleton
import proofs.«900735_g7700000000000736_dist_ar_v7x_xyz2x4x4_z_m256_n256_bf16_1_alg».proof.Proof.Gen.KernelIdeal.Launch
import proofs.«900735_g7700000000000736_dist_ar_v7x_xyz2x4x4_z_m256_n256_bf16_1_alg».proof.Proof.Gen.KernelIdeal.Points
import proofs.«900735_g7700000000000736_dist_ar_v7x_xyz2x4x4_z_m256_n256_bf16_1_alg».proof.Proof.Gen.KernelIdeal.Frame
import proofs.«900735_g7700000000000736_dist_ar_v7x_xyz2x4x4_z_m256_n256_bf16_1_alg».proof.Proof.Gen.ReferenceIdeal
import proofs.«900735_g7700000000000736_dist_ar_v7x_xyz2x4x4_z_m256_n256_bf16_1_alg».proof.Proof.Gen.Pre_finite_inputs_Kernel
import proofs.«900735_g7700000000000736_dist_ar_v7x_xyz2x4x4_z_m256_n256_bf16_1_alg».proof.Proof.Gen.Pre_finite_inputs_ReferenceIdeal
import Idealize.ShloMosaic.Adequacy
import Idealize.ShloMosaic.Init
import proofs.«900735_g7700000000000736_dist_ar_v7x_xyz2x4x4_z_m256_n256_bf16_1_alg».proof.Proof.Claims

noncomputable section

namespace Cert.Proof

theorem claim : Cert.Claim := Cert.Claims.claim

end Cert.Proof

end
